-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 41
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096x256, .bf16⟩
  | .hbm, ⟨15, _⟩ => ⟨S4096x1, .f32⟩
  | .hbm, ⟨16, _⟩ => ⟨S1x4096, .f32⟩
  | .hbm, ⟨17, _⟩ => ⟨S4096x1, .f32⟩
  | .hbm, ⟨18, _⟩ => ⟨S4096x1, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x256_S4096_d1 : S4096x256.ReducesTo [1] S4096
  h_S_ : 0 < S_.numel
  bitsLt_bf16_f32 : FTy.bits .bf16 < FTy.bits .f32
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S256x4096 : Shape := ⟨2, ![256, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S256x4096, .f32⟩
  | .hbm, ⟨15, _⟩ => ⟨S4096x4096, .f32⟩
  | .hbm, ⟨16, _⟩ => ⟨S4096x1, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  transposes_S4096x256_S256x4096_1_0 : S4096x256.Transposes [1, 0] S256x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Runs.lean ====
/-
  The pairwise row-sum region, what its frame's parts share.

  The region walks a 4 x 4 grid in row-major order: point t is block row t / 4 and block column t % 4. Five input
  windows are staged per point (the row block and the column block of the anchors, the row block and the column block
  of their squared norms, the row block of the distances to the negatives) and one output window (the row block of
  the row sums). A VMEM scratch holds the running row sums of the current block row: it is reset where the block
  column is 0, added to at every point, and copied to the output where the block column is 3.

  Stated here: the buffers as the region finds them (the host lines before it having run), each window's block at a
  point, the two conditions the body branches on in closed form over the grid, where the output window is idle,
  and the memrefs the body is called with.
-/
import proofs.«165115_j88639535055182_1_alg».proof.Proof.Gen.Kernel.Launch
import proofs.«165115_j88639535055182_1_alg».proof.Proof.Gen.Kernel.Skeleton
import proofs.«165115_j88639535055182_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the fifteen host lines before the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "The block column is 0": the condition under which the body resets the running sums. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- "The block column is 3": the condition under which the body copies the running sums to the output. -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the block column is 0 the body stores nothing into the output window, and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same where the block column is 1 or 2. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where the block column is 3 the body stores into the output window. -/
theorem liveAt0_5_C : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The scratch of running row sums, a whole scoped buffer of the kernel's own. -/
abbrev scM0_0 : Memref sig .tc .vmem S1024x1 .f32 := Memref.whole cc0_scratch0
/-- The same as a view: what the scratch holds is stated through it. -/
abbrev VS0_0 : View sig .tc .vmem S1024x1 .f32 := scM0_0.view
/-- One staging buffer of the output window, through which its contents are stated. -/
abbrev VO0_5 : View sig .tc .vmem S1024x1 .f32 := (Memref.whole cc0_stg5_0 : Memref sig .tc .vmem S1024x1 .f32).view

/-- What the region hands the body besides the windows: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point's step of the running sums -/

/-- The running row sums after a point, from the five input blocks there and the sums `xs` the point starts from: to
    each row's sum is added that row's sum, over the block's 1024 columns, of the pairwise entry (the diagonal entry
    replaced by the row's distance to its negative). -/
def accStep (i : grid0.Coords) (x0 x1 : Vec F S1024x256 .bf16) (x2 : Vec F S1024x1 .f32) (x3 : Vec F S1x1024 .f32) (x4 : Vec F S1024x1 .f32)
    (xs : Vec F S1024x1 .f32) : Vec F S1024x1 .f32 :=
  k0_pay1 (k0_pay3 i x0 x1 x2 x3 x4 xs)

/-- The running sums a block row starts from: all zero. -/
def accZero : Vec F S1024x1 .f32 := k0_pay2

end Cert.Kernel.Hand

end
-- ==== Proof.K.Run.lean ====
/-
  The body of the pairwise row-sum kernel, run once per case of its two conditions on whole staging memrefs.

  Block column 0 (case A): the running sums are reset to zero, then the point's contribution is added; the output
  window is left as found. Block column 1 or 2 (case B): the contribution is added to the sums the point before
  left; the output window is left as found. Block column 3 (case C): as B, and the new sums are copied into the
  output window. In every case the five input blocks are handed back as found.
-/
import proofs.«165115_j88639535055182_1_alg».proof.Proof.K.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle, however spelt, are the constant zero. -/
theorem kernelRun0_off00 : (![0, 0] : Fin 2 → Nat) = fun _ => 0 := by
  funext a; fin_cases a <;> rfl

/-- A buffer whose last store went through the whole-shape rectangle at zero offsets reads back that store's
    payload, whatever it held before and whatever was stored earlier: the rectangle holds every index, so the
    contents are the canonical contents of the list of stores, whose head decides every index. -/
theorem kernelRun0_read_writes_whole_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- Case A: the block column is 0. -/
theorem kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .bf16) (x2 : Vec F S1024x1 .f32) (x3 : Vec F S1x1024 .f32) (x4 : Vec F S1024x1 .f32) (y5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare (accStep i x0 x1 x2 x3 x4 accZero)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- The reset store and the accumulating store both go through the whole scratch; the second decides what is left,
  -- and the load between them reads back the zeros the reset put there.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  iexists _; isplitr
  swap
  · iexact HS
  ipureintro
  refine (kernelRun0_read_writes_whole_last (S := S1024x1) arg8.view _ kernelRun0_off00 _ _ _).trans ?_
  sl_unfold_words
  unfold accStep accZero
  simp only [View.readAt_eq_ld, harg2.read_unread, harg3.read_unread, harg4.read_unread, harg5.read_unread, harg6.read_unread,
    View.ld_unit_zero (S := S1024x256) kernelRun0_off00, View.ld_unit_zero (S := S1024x1) kernelRun0_off00,
    View.ld_unit_zero (S := S1x1024) kernelRun0_off00, View.readCov_unit_zero (S := S1024x1) _ kernelRun0_off00]

/-- Case B: the block column is 1 or 2. -/
theorem kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .bf16) (x2 : Vec F S1024x1 .f32) (x3 : Vec F S1x1024 .f32) (x4 : Vec F S1024x1 .f32) (y5 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare (accStep i x0 x1 x2 x3 x4 xs)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- The one store goes through the whole scratch and decides what is left; every load reads a whole block as found.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  iexists _; isplitr
  swap
  · iexact HS
  ipureintro
  refine (kernelRun0_read_writes_whole_last (S := S1024x1) arg8.view _ kernelRun0_off00 _ _ _).trans ?_
  sl_unfold_words
  unfold accStep
  simp only [View.readAt_eq_ld, harg2.read_unread, harg3.read_unread, harg4.read_unread, harg5.read_unread, harg6.read_unread,
    harg8.read_unread, View.ld_unit_zero (S := S1024x256) kernelRun0_off00, View.ld_unit_zero (S := S1024x1) kernelRun0_off00,
    View.ld_unit_zero (S := S1x1024) kernelRun0_off00]

/-- Case C: the block column is 3. -/
theorem kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .bf16) (x2 : Vec F S1024x1 .f32) (x3 : Vec F S1x1024 .f32) (x4 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (accStep i x0 x1 x2 x3 x4 xs) ∗ owns (c : Thread nD τ) arg8 fullShare (accStep i x0 x1 x2 x3 x4 xs)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- As in the middle columns for the scratch; the output window then receives, through its whole buffer, what a
  -- load of the scratch reads after that store: the new running sums.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    swap
    · iexact H5
    ipureintro
    refine (kernelRun0_read_writes_whole_last (S := S1024x1) arg7.view _ kernelRun0_off00 _ _ _).trans ?_
    sl_unfold_words
    refine (View.readCov_unit_zero (S := S1024x1) arg8.view kernelRun0_off00 _ _).trans ?_
    unfold accStep
    simp only [View.readAt_eq_ld, harg2.read_unread, harg3.read_unread, harg4.read_unread, harg5.read_unread, harg6.read_unread,
      harg8.read_unread, View.ld_unit_zero (S := S1024x256) kernelRun0_off00, View.ld_unit_zero (S := S1024x1) kernelRun0_off00,
      View.ld_unit_zero (S := S1x1024) kernelRun0_off00]
  iexists _; isplitr
  swap
  · iexact HS
  ipureintro
  refine (kernelRun0_read_writes_whole_last (S := S1024x1) arg8.view _ kernelRun0_off00 _ _ _).trans ?_
  sl_unfold_words
  unfold accStep
  simp only [View.readAt_eq_ld, harg2.read_unread, harg3.read_unread, harg4.read_unread, harg5.read_unread, harg6.read_unread,
    harg8.read_unread, View.ld_unit_zero (S := S1024x256) kernelRun0_off00, View.ld_unit_zero (S := S1024x1) kernelRun0_off00,
    View.ld_unit_zero (S := S1x1024) kernelRun0_off00]

end Cert.Kernel.Hand

end
-- ==== Proof.K.Frame.lean ====
/-
  The frame of the pairwise row-sum region: what the scratch of running row sums holds after each grid point, the
  region's proof data, and the body obligation at every point.

  After point t the scratch holds, for each of the block row's 1024 rows, the sum of that row's pairwise entries over
  the block columns 0 … t % 4: a block row's first point starts from zero, every other point from what the point
  before left. The output window receives those sums at a block row's last point, and is written back there.
  The two anchor windows read one array, each at half its share.
-/
import proofs.«165115_j88639535055182_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums, point by point -/

/-- What the scratch holds after the body at position `n`. -/
def outsAt0 (c : Dev nD) : (n : ℕ) → n < cfg0.N → Vec F S1024x1 .f32
  | 0, hn => accStep (grid0.coords ⟨0, hn⟩) (iblk m c 0 ⟨0, hn⟩) (iblk m c 1 ⟨0, hn⟩) (iblk m c 2 ⟨0, hn⟩) (iblk m c 3 ⟨0, hn⟩) (iblk m c 4 ⟨0, hn⟩) accZero
  | n + 1, hn =>
    if (n + 1) % 4 = 0 then accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) accZero
    else accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- At a block row's first point the sums start from zero. -/
theorem outsAt0_A (c : Dev nD) (t : Fin cfg0.N) (h0 : t.val % 4 = 0) :
    outsAt0 m c t.val t.isLt = accStep (grid0.coords t) (iblk m c 0 t) (iblk m c 1 t) (iblk m c 2 t) (iblk m c 3 t) (iblk m c 4 t) accZero := by
  obtain ⟨n, hn⟩ := t
  cases n with
  | zero => exact rfl
  | succ n => exact (if_pos h0).trans rfl

/-- At every other point they start from what the point before left. -/
theorem outsAt0_B (c : Dev nD) (t : Fin cfg0.N) (h0 : ¬t.val % 4 = 0) :
    outsAt0 m c t.val t.isLt = accStep (grid0.coords t) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant -/

/-- Before the first point the scratch holds anything; after point `n` it holds that point's running sums. The
    generator register rides along at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega))) ∗ (∃ r, prngReg c r)) := by
  cases n with
  | zero => exact absurd rfl hz
  | succ n => rfl

/-! ## The proof data -/

/-- The arrays as the region finds them; after the body each input's buffer at its block and the output's at the
    running sums; the invariant `PhiS`; nothing owed. The two anchor windows read one array: the first holds the
    left half of its share, the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live at every point: the body leaves its buffer at the window's block there. -/
private theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]

private theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]

private theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]

private theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

private theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-- Where the block column is 3 the output window is live: the body leaves its buffer at the running sums. -/
private theorem leaves0_5_C (c : Dev nD) (t : Fin cfg0.N) (h0 : ¬t.val % 4 = 0) (h1 : t.val % 4 = 3) :
    (dats m 0 c).leavesExact 5 t = owns (c : Thread nD τ) (ms0_5 t) fullShare (outsAt0 m c t.val t.isLt) := by
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]

set_option maxHeartbeats 4800000 in
/-- The body at any point. Every input's buffer holds its block; the point's residue modulo 4 says which of the three
    runs applies. A block row's first point hands the run the scratch at whatever it holds (at the region's very first
    point the invariant says no more; later it holds the previous block row's sums, which are forgotten) and takes it
    back at the sums started from zero; every other point hands it the sums the point before left and takes back those
    sums stepped once. The output window's buffer is handed back as found except at a block row's last point, where it
    receives the stepped sums. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 16 := lt_of_lt_of_eq t.isLt (show cfg0.N = 16 from N_0)
  by_cases h0 : t.val % 4 = 0
  · have h1 : ¬t.val % 4 = 3 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [outsAt0_A m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ ((hcond0_0 t).mpr h0) (fun h => h1 ((hcond0_1 t).mp h))
        (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ ((hcond0_0 t).mpr h0) (fun h => h1 ((hcond0_1 t).mp h))
        (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 4 = 3
    · rw [leaves0_5_C m c t h0 h1]
      rw [outsAt0_B m c t h0]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ (fun h => h0 ((hcond0_0 t).mp h)) ((hcond0_1 t).mpr h1)
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) ((dats m 0 c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.Kernel.Hand

end
-- ==== Proof.K.Launch.lean ====
/-
  The launch of the kernel program: @main as the fifteen host lines before the region, the region, and the
  twenty-two host lines after it.

  The host lines run within the unscoped buffers held whole. At the region's entry the five buffers behind the six
  windows' arrays are handed to the pipeline — the anchors' array, read by two windows, half its share to each — and
  every other buffer bypasses the region. At its exit the halves are joined again, the result array is taken back at
  what the pipeline wrote, and the lines after the region run within all the unscoped buffers as before.
  Read at the end: the result buffer holds the lines' value from the region's exit contents, and no argument array
  has changed.
-/
import proofs.«165115_j88639535055182_1_alg».proof.Proof.K.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents at the region's exit: as at its entry, but for the result array, which holds what the
    pipeline wrote back. -/
def Wexit (c : Dev nD) : Valuation τ sig (Elt F) :=
  Function.update (V0 m c) (Proc.devRef .tc main_v12) ((dats m 0 c).arrAt 5 cfg0.N)

/-- The same read at a TensorCore reference. -/
def Wx (c : Dev nD) (b : Ref sig .tc) : Buf (Elt F) ((c : Thread nD τ).loc b) := Wexit m c (Proc.devRef .tc b)

theorem Wx_v12 (c : Dev nD) : Wx m c main_v12 = (dats m 0 c).arrAt 5 cfg0.N := by
  unfold Wx Wexit; exact Function.update_self _ _ _

theorem Wx_of_ne (c : Dev nD) (b : Ref sig .tc) (hb : b ≠ main_v12) : Wx m c b = V m c b := by
  unfold Wx Wexit; exact Function.update_of_ne (StableHlo.devRef_ne_of_ne hb) _ _

/-! ## The windows' arrays and the buffers behind them -/

/-- The five distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_v9) ↦{fullShare} W main_v9)
          ∗ (((c : Thread nD τ).loc main_v10) ↦{fullShare} W main_v10) ∗ (((c : Thread nD τ).loc main_v11) ↦{fullShare} W main_v11)
          ∗ (((c : Thread nD τ).loc main_v12) ↦{fullShare} W main_v12)) := by
  unfold Pipeline.arrBufs
  exact bigSep_eq_bigSepL_of_eq [main_v8, main_v9, main_v10, main_v11, main_v12] (by decide) (by decide) _

theorem share0_0 (c : Dev nD) : (dats m 0 c).share 0 = fullShare.left := by unfold Dat.share; rfl
theorem share0_1 (c : Dev nD) : (dats m 0 c).share 1 = fullShare.right := by unfold Dat.share; rfl
theorem share0_2 (c : Dev nD) : (dats m 0 c).share 2 = fullShare := by unfold Dat.share; rfl
theorem share0_3 (c : Dev nD) : (dats m 0 c).share 3 = fullShare := by unfold Dat.share; rfl
theorem share0_4 (c : Dev nD) : (dats m 0 c).share 4 = fullShare := by unfold Dat.share; rfl
theorem share0_5 (c : Dev nD) : (dats m 0 c).share 5 = fullShare := by unfold Dat.share; rfl

/-- One window's array at its share, as a points-to of the buffer behind it. -/
theorem arr_pt (c : Dev nD) (w : Fin cfg0.W) (q : PosShare TreeShare) (hq : (dats m 0 c).share w = q)
    (f : Buf (Elt F) ((cfg0.win w).arr.view.loc (c : Thread nD τ))) :
    (((cfg0.win w).arr.view.loc (c : Thread nD τ) ↦[(cfg0.win w).arr.view.set]{(dats m 0 c).share w} f) : sProp 𝕄)
      = (((c : Thread nD τ).loc (Pipeline.arrRef spec0 w)) ↦{q} f) := by
  rw [(arr_whole0 w).set_eq_univ, hq]

theorem v8_ne_v12 : (main_v8 : Ref sig .tc) ≠ main_v12 := by decide +kernel
theorem v9_ne_v12 : (main_v9 : Ref sig .tc) ≠ main_v12 := by decide +kernel
theorem v10_ne_v12 : (main_v10 : Ref sig .tc) ≠ main_v12 := by decide +kernel
theorem v11_ne_v12 : (main_v11 : Ref sig .tc) ≠ main_v12 := by decide +kernel

/-- The entry contents of each window's array are the region-entry contents of the buffer behind it. -/
theorem arrAt_zero (c : Dev nD) (w : Fin cfg0.W) : (dats m 0 c).arrAt w 0 = V m c (Pipeline.arrRef spec0 w) := rfl

/-- An input window's array ends as it began. -/
theorem arrAt_in_N (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- ENTRY: the five buffers at the region-entry contents make the six windows' arrays, the anchors' buffer dealt in
    two halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]; unfold Dat.arrays; rw [bigSep_W0]
  rw [arr_pt m c 0 _ (share0_0 m c), arr_pt m c 1 _ (share0_1 m c), arr_pt m c 2 _ (share0_2 m c), arr_pt m c 3 _ (share0_3 m c),
    arr_pt m c 4 _ (share0_4 m c), arr_pt m c 5 _ (share0_5 m c)]
  simp only [arrAt_zero]
  iintro ⟨H8, H9, H10, H11, H12⟩
  ihave H := (pointsTo_share (PosShare.mem_left_op_right fullShare)).1 $$ H8
  icases H with ⟨Hl, Hr⟩
  isplitl [Hl]; · iexact Hl
  isplitl [Hr]; · iexact Hr
  isplitl [H9]; · iexact H9
  isplitl [H10]; · iexact H10
  isplitl [H11]; · iexact H11
  iexact H12

/-- Six windows' arrays at any contents make the five buffers at contents that agree with them window by window,
    the two halves of the anchors' buffer joined. -/
theorem arrBufs_of_arrays_at (c : Dev nD) (G : (w : Fin cfg0.W) → Buf (Elt F) ((cfg0.win w).arr.view.loc (c : Thread nD τ)))
    (W : (b : Ref sig .tc) → Buf (Elt F) ((c : Thread nD τ).loc b))
    (h0 : G 0 = W main_v8) (h1 : G 1 = W main_v8) (h2 : G 2 = W main_v9) (h3 : G 3 = W main_v10) (h4 : G 4 = W main_v11)
    (h5 : G 5 = W main_v12) :
    (dats m 0 c).arrays G
      ⊢ (Pipeline.arrBufs (Ix := Unit) (Name := ℕ) (U := UR sig nD τ) (Lvl := ℕ) spec0 c W : sProp 𝕄) := by
  rw [arrBufs0_eq]; unfold Dat.arrays; rw [bigSep_W0]
  rw [arr_pt m c 0 _ (share0_0 m c), arr_pt m c 1 _ (share0_1 m c), arr_pt m c 2 _ (share0_2 m c), arr_pt m c 3 _ (share0_3 m c),
    arr_pt m c 4 _ (share0_4 m c), arr_pt m c 5 _ (share0_5 m c)]
  rw [h0, h1, h2, h3, h4, h5]
  iintro ⟨Hl, Hr, H9, H10, H11, H12⟩
  isplitl [Hl Hr]
  · iapply (pointsTo_share (PosShare.mem_left_op_right fullShare)).2
    isplitl [Hl] <;> iassumption
  isplitl [H9]; · iexact H9
  isplitl [H10]; · iexact H10
  isplitl [H11]; · iexact H11
  iexact H12

/-- EXIT: the six windows' arrays at their final contents make the five buffers at the exit contents. -/
theorem arrBufs_of_arrays (c : Dev nD) :
    (dats m 0 c).arrays ((dats m 0 c).arrAt · cfg0.N)
      ⊢ (Pipeline.arrBufs (Ix := Unit) (Name := ℕ) (U := UR sig nD τ) (Lvl := ℕ) spec0 c (Wx m c) : sProp 𝕄) :=
  arrBufs_of_arrays_at m c _ (Wx m c)
    ((arrAt_in_N m c 0 rfl).trans (Wx_of_ne m c main_v8 v8_ne_v12).symm)
    ((arrAt_in_N m c 1 rfl).trans (Wx_of_ne m c main_v8 v8_ne_v12).symm)
    ((arrAt_in_N m c 2 rfl).trans (Wx_of_ne m c main_v9 v9_ne_v12).symm)
    ((arrAt_in_N m c 3 rfl).trans (Wx_of_ne m c main_v10 v10_ne_v12).symm)
    ((arrAt_in_N m c 4 rfl).trans (Wx_of_ne m c main_v11 v11_ne_v12).symm)
    (Wx_v12 m c).symm

/-- The buffers that bypass the region hold at its exit what they held at its entry. -/
theorem unscopedRest_exit (c : Dev nD) :
    (Pipeline.unscopedRest (Ix := Unit) (Name := ℕ) (U := UR sig nD τ) (Lvl := ℕ) spec0 c (Wx m c) : sProp 𝕄)
      = Pipeline.unscopedRest spec0 c (V m c) := by
  unfold Pipeline.unscopedRest
  refine bigSep_congr fun b hb => ?_
  rw [Wx_of_ne m c b]
  rintro rfl
  exact (Finset.mem_sdiff.mp hb).2 (Finset.mem_image.mpr ⟨5, Finset.mem_univ _, rfl⟩)

/-! ## @main as three segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host lines: the generator register at some state, and the core owing
    nothing. -/
abbrev R (c : Dev nD) : sProp 𝕄 :=
  iprop((∃ r, prngReg c r) ∗ ∃ W, owes (c : Thread nD τ) (0 : CellTallies nD τ sig Unit) W)

/-- Core `c`'s buffers at launch, as a valuation. -/
abbrev Vm (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The fifteen lines before the region, within the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (Vm m) R

/-- The twenty-two lines after the region, within the unscoped buffers at the exit contents. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh (Wexit m) R

theorem held_entry (c : Dev nD) :
    (StableHlo.held (c : Thread nD τ) (Pipeline.ucRefs τ sig) (StableHlo.after hostOps0 (Vm m c)) : sProp 𝕄)
      = iprop(Pipeline.arrBufs spec0 c (V m c) ∗ Pipeline.unscopedRest spec0 c (V m c)) := by
  rw [show (StableHlo.held (c : Thread nD τ) (Pipeline.ucRefs τ sig) (StableHlo.after hostOps0 (Vm m c)) : sProp 𝕄)
      = unscopedBufs c (V m c) from (Pipeline.unscopedBufs_held c _).symm]
  exact Pipeline.unscopedBufs_split₀ cfgs 0 winFacts₀0.arr_unscoped c (V m c)

theorem held_exit (c : Dev nD) :
    (StableHlo.held (c : Thread nD τ) (Pipeline.ucRefs τ sig) (Wexit m c) : sProp 𝕄)
      = iprop(Pipeline.arrBufs spec0 c (Wx m c) ∗ Pipeline.unscopedRest spec0 c (V m c)) := by
  rw [show (StableHlo.held (c : Thread nD τ) (Pipeline.ucRefs τ sig) (Wexit m c) : sProp 𝕄)
      = unscopedBufs c (Wx m c) from (Pipeline.unscopedBufs_held c _).symm]
  rw [Pipeline.unscopedBufs_split₀ cfgs 0 winFacts₀0.arr_unscoped c (Wx m c), unscopedRest_exit]

-- `iapply` of a library lemma stated over `cfgs p` at the pinned configuration unifies only when unification may
-- unfold plain definitions in a metavariable's type
set_option backward.isDefEq.respectTransparency.types false in
/-- The region: entered from what the lines before it left — the windows' arrays into the pipeline, the generator
    register into the invariant, every other buffer bypassing —, left with the result array at what was written back. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vm m c)) ∗ R c)
  post c := iprop(StableHlo.held (c : Thread nD τ) (Pipeline.ucRefs τ sig) (Wexit m c) ∗ R c)
  X c := iprop(∃ r, prngReg c r)
  Y c := iprop(∃ r, prngReg c r)
  Z c := Pipeline.unscopedRest spec0 c (V m c)
  hentry c := by
    rw [held_entry]
    iintro ⟨⟨⟨Ha, Hrest⟩, Hp, HO⟩, -, -⟩
    imodintro
    isplitl [Ha]; · iapply (arrays_of_arrBufs m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr] <;> iassumption
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [held_exit]
    iintro ⟨Ha, HO, HY, HZ⟩
    imodintro
    isplitl [Ha HZ]
    · isplitl [Ha]; · iapply (arrBufs_of_arrays m c); iexact Ha
      iexact HZ
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-! ## The run -/

/-- The lines before the region write none of the argument arrays, nor do the lines after it. -/
theorem hostOps0_keeps (b : Ref sig .tc) (hb : b = main_arg0 ∨ b = main_arg1 ∨ b = main_arg2) :
    ∀ op ∈ (hostOps0 : List (HloOp τ sig (Elt F))), Proc.devRef .tc b ∉ op.writes := by
  intro op h
  rcases hb with rfl | rfl | rfl <;>
  ((repeat (cases h with
    | head => simp only [StableHlo.unary_writes, StableHlo.binary_writes, StableHlo.nullary_writes, StableHlo.reshape_writes, Finset.mem_singleton]; exact StableHlo.devRef_ne_of_ne (by decide +kernel)
    | tail _ h => ?_)); exact nomatch h)

theorem hostOps1_keeps (b : Ref sig .tc) (hb : b = main_arg0 ∨ b = main_arg1 ∨ b = main_arg2) :
    ∀ op ∈ (hostOps1 : List (HloOp τ sig (Elt F))), Proc.devRef .tc b ∉ op.writes := by
  intro op h
  rcases hb with rfl | rfl | rfl <;>
  ((repeat (cases h with
    | head => simp only [StableHlo.unary_writes, StableHlo.binary_writes, StableHlo.nullary_writes, StableHlo.reshape_writes, Finset.mem_singleton]; exact StableHlo.devRef_ne_of_ne (by decide +kernel)
    | tail _ h => ?_)); exact nomatch h)

theorem mem_ucRefs (b : Ref sig .tc) (hb : b.isScoped = false) : Proc.devRef .tc b ∈ Pipeline.ucRefs τ sig := by
  unfold Pipeline.ucRefs StableHlo.tcRefs
  refine Finset.mem_filter.mpr ⟨Finset.mem_map_of_mem _ (Finset.mem_univ b), ?_⟩
  simpa using hb

/-- An argument array holds at the end what it held at launch: no line writes it, and the region leaves it. -/
theorem arg_kept (c : Dev nD) (b : Ref sig .tc) (hb : b = main_arg0 ∨ b = main_arg1 ∨ b = main_arg2) (hne : b ≠ main_v12) :
    StableHlo.after hostOps1 (Wexit m c) (Proc.devRef .tc b) = m ((c.tc : Thread nD τ).loc b) := by
  rw [StableHlo.after_of_forall_not_mem hostOps1 _ (hostOps1_keeps b hb)]
  unfold Wexit
  rw [Function.update_of_ne (StableHlo.devRef_ne_of_ne hne)]
  exact StableHlo.after_of_forall_not_mem hostOps0 _ (hostOps0_keeps b hb)

-- the launch theorem's implicit arguments are found by unifying its conclusion with this one, which takes unfolding plain
-- definitions in a metavariable's type
set_option backward.isDefEq.respectTransparency.types false in
/-- Every weakly fair execution of @main terminates; at the end the result buffer holds the value of the lines after
    the region at the exit contents, and the three argument arrays are as launched. -/
theorem run_main : θ_run defs (onTc (τ := τ) (main (F := F))) ⟨m, fun _ => 0, ρ⟩ (fun r => ∀ c : Dev nD,
    r.2.mem ((c.tc : Thread nD τ).loc main_v29) = StableHlo.after hostOps1 (Wexit m c) (Proc.devRef .tc main_v29)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c))
    (Tₙ := fun c => iprop(StableHlo.held (c : Thread nD τ) (Pipeline.ucRefs τ sig) (StableHlo.after hostOps1 (Wexit m c)) ∗ ∃ r, prngReg c r))
    (hch := ⟨fun _ => .rfl, fun _ => .rfl, fun _ => .rfl, fun c => by
      show (iprop(StableHlo.held (c : Thread nD τ) (Pipeline.ucRefs τ sig) (StableHlo.after hostOps1 (Wexit m c)) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v29) = StableHlo.after hostOps1 (Wexit m c) (Proc.devRef .tc main_v29)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨Hh, -⟩, HSI⟩
      unfold StableHlo.held
      ihave Hr := (pointsTo_read_all (Pipeline.ucRefs τ sig) (fun b => ((c : Thread nD τ).1, b)) (StableHlo.after hostOps1 (Wexit m c)) s') $$ [Hh HSI]
      · isplitl [Hh] <;> iassumption
      icases Hr with ⟨%ha, HSI⟩
      imodintro
      isplitr
      · ipureintro
        exact ⟨ha _ (mem_ucRefs main_v29 (by decide +kernel)),
          (ha _ (mem_ucRefs main_arg0 (by decide +kernel))).trans (arg_kept m c main_arg0 (.inl rfl) (by decide +kernel)),
          (ha _ (mem_ucRefs main_arg1 (by decide +kernel))).trans (arg_kept m c main_arg1 (.inr (.inl rfl)) (by decide +kernel)),
          (ha _ (mem_ucRefs main_arg2 (by decide +kernel))).trans (arg_kept m c main_arg2 (.inr (.inr rfl)) (by decide +kernel))⟩
      iexact HSI)
    (hQ := fun _ h => h)

end Cert.Kernel.Hand

end
-- ==== Proof.KI.Runs.lean ====
/-
  The pairwise row-sum region, what its frame's parts share.

  The region walks a 4 x 4 grid in row-major order: point t is block row t / 4 and block column t % 4. Five input
  windows are staged per point (the row block and the column block of the anchors, the row block and the column block
  of their squared norms, the row block of the distances to the negatives) and one output window (the row block of
  the row sums). A VMEM scratch holds the running row sums of the current block row: it is reset where the block
  column is 0, added to at every point, and copied to the output where the block column is 3.

  Stated here: the buffers as the region finds them (the host lines before it having run), each window's block at a
  point, the two conditions the body branches on in closed form over the grid, where the output window is idle,
  and the memrefs the body is called with.
-/
import proofs.«165115_j88639535055182_1_alg».proof.Proof.Gen.KernelIdeal.Launch
import proofs.«165115_j88639535055182_1_alg».proof.Proof.Gen.KernelIdeal.Skeleton
import proofs.«165115_j88639535055182_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the fifteen host lines before the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "The block column is 0": the condition under which the body resets the running sums. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- "The block column is 3": the condition under which the body copies the running sums to the output. -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the block column is 0 the body stores nothing into the output window, and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same where the block column is 1 or 2. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where the block column is 3 the body stores into the output window. -/
theorem liveAt0_5_C : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The scratch of running row sums, a whole scoped buffer of the kernel's own. -/
abbrev scM0_0 : Memref sig .tc .vmem S1024x1 .f32 := Memref.whole cc0_scratch0
/-- The same as a view: what the scratch holds is stated through it. -/
abbrev VS0_0 : View sig .tc .vmem S1024x1 .f32 := scM0_0.view
/-- One staging buffer of the output window, through which its contents are stated. -/
abbrev VO0_5 : View sig .tc .vmem S1024x1 .f32 := (Memref.whole cc0_stg5_0 : Memref sig .tc .vmem S1024x1 .f32).view

/-- What the region hands the body besides the windows: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point's step of the running sums -/

/-- The running row sums after a point, from the five input blocks there and the sums `xs` the point starts from: to
    each row's sum is added that row's sum, over the block's 1024 columns, of the pairwise entry (the diagonal entry
    replaced by the row's distance to its negative). -/
def accStep (i : grid0.Coords) (x0 x1 : Vec F S1024x256 .bf16) (x2 : Vec F S1024x1 .f32) (x3 : Vec F S1x1024 .f32) (x4 : Vec F S1024x1 .f32)
    (xs : Vec F S1024x1 .f32) : Vec F S1024x1 .f32 :=
  k0_pay1 (k0_pay3 i x0 x1 x2 x3 x4 xs)

/-- The running sums a block row starts from: all zero. -/
def accZero : Vec F S1024x1 .f32 := k0_pay2

end Cert.KernelIdeal.Hand

end
-- ==== Proof.KI.Run.lean ====
/-
  The body of the pairwise row-sum kernel, run once per case of its two conditions on whole staging memrefs.

  Block column 0 (case A): the running sums are reset to zero, then the point's contribution is added; the output
  window is left as found. Block column 1 or 2 (case B): the contribution is added to the sums the point before
  left; the output window is left as found. Block column 3 (case C): as B, and the new sums are copied into the
  output window. In every case the five input blocks are handed back as found.
-/
import proofs.«165115_j88639535055182_1_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle, however spelt, are the constant zero. -/
theorem kernelRun0_off00 : (![0, 0] : Fin 2 → Nat) = fun _ => 0 := by
  funext a; fin_cases a <;> rfl

/-- A buffer whose last store went through the whole-shape rectangle at zero offsets reads back that store's
    payload, whatever it held before and whatever was stored earlier: the rectangle holds every index, so the
    contents are the canonical contents of the list of stores, whose head decides every index. -/
theorem kernelRun0_read_writes_whole_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- Case A: the block column is 0. -/
theorem kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .bf16) (x2 : Vec F S1024x1 .f32) (x3 : Vec F S1x1024 .f32) (x4 : Vec F S1024x1 .f32) (y5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare (accStep i x0 x1 x2 x3 x4 accZero)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- The reset store and the accumulating store both go through the whole scratch; the second decides what is left,
  -- and the load between them reads back the zeros the reset put there.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  iexists _; isplitr
  swap
  · iexact HS
  ipureintro
  refine (kernelRun0_read_writes_whole_last (S := S1024x1) arg8.view _ kernelRun0_off00 _ _ _).trans ?_
  sl_unfold_words
  unfold accStep accZero
  simp only [View.readAt_eq_ld, harg2.read_unread, harg3.read_unread, harg4.read_unread, harg5.read_unread, harg6.read_unread,
    View.ld_unit_zero (S := S1024x256) kernelRun0_off00, View.ld_unit_zero (S := S1024x1) kernelRun0_off00,
    View.ld_unit_zero (S := S1x1024) kernelRun0_off00, View.readCov_unit_zero (S := S1024x1) _ kernelRun0_off00]

/-- Case B: the block column is 1 or 2. -/
theorem kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .bf16) (x2 : Vec F S1024x1 .f32) (x3 : Vec F S1x1024 .f32) (x4 : Vec F S1024x1 .f32) (y5 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare y5 ∗ owns (c : Thread nD τ) arg8 fullShare (accStep i x0 x1 x2 x3 x4 xs)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- The one store goes through the whole scratch and decides what is left; every load reads a whole block as found.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  iexists _; isplitr
  swap
  · iexact HS
  ipureintro
  refine (kernelRun0_read_writes_whole_last (S := S1024x1) arg8.view _ kernelRun0_off00 _ _ _).trans ?_
  sl_unfold_words
  unfold accStep
  simp only [View.readAt_eq_ld, harg2.read_unread, harg3.read_unread, harg4.read_unread, harg5.read_unread, harg6.read_unread,
    harg8.read_unread, View.ld_unit_zero (S := S1024x256) kernelRun0_off00, View.ld_unit_zero (S := S1024x1) kernelRun0_off00,
    View.ld_unit_zero (S := S1x1024) kernelRun0_off00]

/-- Case C: the block column is 3. -/
theorem kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .bf16) (x2 : Vec F S1024x1 .f32) (x3 : Vec F S1x1024 .f32) (x4 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (accStep i x0 x1 x2 x3 x4 xs) ∗ owns (c : Thread nD τ) arg8 fullShare (accStep i x0 x1 x2 x3 x4 xs)) -∗ K ⟨⟩))
      ⊢ wp frame (wpE (defs₀ (F := F)) Variants.none c none) E (cc0__pairwise_rowsum_kernel i arg2 harg2 arg3 harg3 arg4 harg4 arg5 harg5 arg6 harg6 arg7 harg7 arg8 harg8) K := by
  -- As in the middle columns for the scratch; the output window then receives, through its whole buffer, what a
  -- load of the scratch reads after that store: the new running sums.
  simp only [cc0__pairwise_rowsum_kernel_eq_skeleton]; unfold cc0__pairwise_rowsum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    swap
    · iexact H5
    ipureintro
    refine (kernelRun0_read_writes_whole_last (S := S1024x1) arg7.view _ kernelRun0_off00 _ _ _).trans ?_
    sl_unfold_words
    refine (View.readCov_unit_zero (S := S1024x1) arg8.view kernelRun0_off00 _ _).trans ?_
    unfold accStep
    simp only [View.readAt_eq_ld, harg2.read_unread, harg3.read_unread, harg4.read_unread, harg5.read_unread, harg6.read_unread,
      harg8.read_unread, View.ld_unit_zero (S := S1024x256) kernelRun0_off00, View.ld_unit_zero (S := S1024x1) kernelRun0_off00,
      View.ld_unit_zero (S := S1x1024) kernelRun0_off00]
  iexists _; isplitr
  swap
  · iexact HS
  ipureintro
  refine (kernelRun0_read_writes_whole_last (S := S1024x1) arg8.view _ kernelRun0_off00 _ _ _).trans ?_
  sl_unfold_words
  unfold accStep
  simp only [View.readAt_eq_ld, harg2.read_unread, harg3.read_unread, harg4.read_unread, harg5.read_unread, harg6.read_unread,
    harg8.read_unread, View.ld_unit_zero (S := S1024x256) kernelRun0_off00, View.ld_unit_zero (S := S1024x1) kernelRun0_off00,
    View.ld_unit_zero (S := S1x1024) kernelRun0_off00]

end Cert.KernelIdeal.Hand

end
-- ==== Proof.KI.Frame.lean ====
/-
  The frame of the pairwise row-sum region: what the scratch of running row sums holds after each grid point, the
  region's proof data, and the body obligation at every point.

  After point t the scratch holds, for each of the block row's 1024 rows, the sum of that row's pairwise entries over
  the block columns 0 … t % 4: a block row's first point starts from zero, every other point from what the point
  before left. The output window receives those sums at a block row's last point, and is written back there.
  The two anchor windows read one array, each at half its share.
-/
import proofs.«165115_j88639535055182_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums, point by point -/

/-- What the scratch holds after the body at position `n`. -/
def outsAt0 (c : Dev nD) : (n : ℕ) → n < cfg0.N → Vec F S1024x1 .f32
  | 0, hn => accStep (grid0.coords ⟨0, hn⟩) (iblk m c 0 ⟨0, hn⟩) (iblk m c 1 ⟨0, hn⟩) (iblk m c 2 ⟨0, hn⟩) (iblk m c 3 ⟨0, hn⟩) (iblk m c 4 ⟨0, hn⟩) accZero
  | n + 1, hn =>
    if (n + 1) % 4 = 0 then accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) accZero
    else accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- At a block row's first point the sums start from zero. -/
theorem outsAt0_A (c : Dev nD) (t : Fin cfg0.N) (h0 : t.val % 4 = 0) :
    outsAt0 m c t.val t.isLt = accStep (grid0.coords t) (iblk m c 0 t) (iblk m c 1 t) (iblk m c 2 t) (iblk m c 3 t) (iblk m c 4 t) accZero := by
  obtain ⟨n, hn⟩ := t
  cases n with
  | zero => exact rfl
  | succ n => exact (if_pos h0).trans rfl

/-- At every other point they start from what the point before left. -/
theorem outsAt0_B (c : Dev nD) (t : Fin cfg0.N) (h0 : ¬t.val % 4 = 0) :
    outsAt0 m c t.val t.isLt = accStep (grid0.coords t) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region invariant -/

/-- Before the first point the scratch holds anything; after point `n` it holds that point's running sums. The
    generator register rides along at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega))) ∗ (∃ r, prngReg c r)) := by
  cases n with
  | zero => exact absurd rfl hz
  | succ n => rfl

/-! ## The proof data -/

/-- The arrays as the region finds them; after the body each input's buffer at its block and the output's at the
    running sums; the invariant `PhiS`; nothing owed. The two anchor windows read one array: the first holds the
    left half of its share, the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live at every point: the body leaves its buffer at the window's block there. -/
private theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]

private theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]

private theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]

private theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

private theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-- Where the block column is 3 the output window is live: the body leaves its buffer at the running sums. -/
private theorem leaves0_5_C (c : Dev nD) (t : Fin cfg0.N) (h0 : ¬t.val % 4 = 0) (h1 : t.val % 4 = 3) :
    (dats m 0 c).leavesExact 5 t = owns (c : Thread nD τ) (ms0_5 t) fullShare (outsAt0 m c t.val t.isLt) := by
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]

set_option maxHeartbeats 4800000 in
/-- The body at any point. Every input's buffer holds its block; the point's residue modulo 4 says which of the three
    runs applies. A block row's first point hands the run the scratch at whatever it holds (at the region's very first
    point the invariant says no more; later it holds the previous block row's sums, which are forgotten) and takes it
    back at the sums started from zero; every other point hands it the sums the point before left and takes back those
    sums stepped once. The output window's buffer is handed back as found except at a block row's last point, where it
    receives the stepped sums. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 16 := lt_of_lt_of_eq t.isLt (show cfg0.N = 16 from N_0)
  by_cases h0 : t.val % 4 = 0
  · have h1 : ¬t.val % 4 = 3 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [outsAt0_A m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ ((hcond0_0 t).mpr h0) (fun h => h1 ((hcond0_1 t).mp h))
        (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ ((hcond0_0 t).mpr h0) (fun h => h1 ((hcond0_1 t).mp h))
        (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 4 = 3
    · rw [leaves0_5_C m c t h0 h1]
      rw [outsAt0_B m c t h0]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ (fun h => h0 ((hcond0_0 t).mp h)) ((hcond0_1 t).mpr h1)
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) ((dats m 0 c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.KernelIdeal.Hand

end
-- ==== Proof.KI.Launch.lean ====
/-
  The launch of the kernel program: @main as the fifteen host lines before the region, the region, and the
  twenty-two host lines after it.

  The host lines run within the unscoped buffers held whole. At the region's entry the five buffers behind the six
  windows' arrays are handed to the pipeline — the anchors' array, read by two windows, half its share to each — and
  every other buffer bypasses the region. At its exit the halves are joined again, the result array is taken back at
  what the pipeline wrote, and the lines after the region run within all the unscoped buffers as before.
  Read at the end: the result buffer holds the lines' value from the region's exit contents, and no argument array
  has changed.
-/
import proofs.«165115_j88639535055182_1_alg».proof.Proof.KI.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents at the region's exit: as at its entry, but for the result array, which holds what the
    pipeline wrote back. -/
def Wexit (c : Dev nD) : Valuation τ sig (Elt F) :=
  Function.update (V0 m c) (Proc.devRef .tc main_v12) ((dats m 0 c).arrAt 5 cfg0.N)

/-- The same read at a TensorCore reference. -/
def Wx (c : Dev nD) (b : Ref sig .tc) : Buf (Elt F) ((c : Thread nD τ).loc b) := Wexit m c (Proc.devRef .tc b)

theorem Wx_v12 (c : Dev nD) : Wx m c main_v12 = (dats m 0 c).arrAt 5 cfg0.N := by
  unfold Wx Wexit; exact Function.update_self _ _ _

theorem Wx_of_ne (c : Dev nD) (b : Ref sig .tc) (hb : b ≠ main_v12) : Wx m c b = V m c b := by
  unfold Wx Wexit; exact Function.update_of_ne (StableHlo.devRef_ne_of_ne hb) _ _

/-! ## The windows' arrays and the buffers behind them -/

/-- The five distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_v9) ↦{fullShare} W main_v9)
          ∗ (((c : Thread nD τ).loc main_v10) ↦{fullShare} W main_v10) ∗ (((c : Thread nD τ).loc main_v11) ↦{fullShare} W main_v11)
          ∗ (((c : Thread nD τ).loc main_v12) ↦{fullShare} W main_v12)) := by
  unfold Pipeline.arrBufs
  exact bigSep_eq_bigSepL_of_eq [main_v8, main_v9, main_v10, main_v11, main_v12] (by decide) (by decide) _

theorem share0_0 (c : Dev nD) : (dats m 0 c).share 0 = fullShare.left := by unfold Dat.share; rfl
theorem share0_1 (c : Dev nD) : (dats m 0 c).share 1 = fullShare.right := by unfold Dat.share; rfl
theorem share0_2 (c : Dev nD) : (dats m 0 c).share 2 = fullShare := by unfold Dat.share; rfl
theorem share0_3 (c : Dev nD) : (dats m 0 c).share 3 = fullShare := by unfold Dat.share; rfl
theorem share0_4 (c : Dev nD) : (dats m 0 c).share 4 = fullShare := by unfold Dat.share; rfl
theorem share0_5 (c : Dev nD) : (dats m 0 c).share 5 = fullShare := by unfold Dat.share; rfl

/-- One window's array at its share, as a points-to of the buffer behind it. -/
theorem arr_pt (c : Dev nD) (w : Fin cfg0.W) (q : PosShare TreeShare) (hq : (dats m 0 c).share w = q)
    (f : Buf (Elt F) ((cfg0.win w).arr.view.loc (c : Thread nD τ))) :
    (((cfg0.win w).arr.view.loc (c : Thread nD τ) ↦[(cfg0.win w).arr.view.set]{(dats m 0 c).share w} f) : sProp 𝕄)
      = (((c : Thread nD τ).loc (Pipeline.arrRef spec0 w)) ↦{q} f) := by
  rw [(arr_whole0 w).set_eq_univ, hq]

theorem v8_ne_v12 : (main_v8 : Ref sig .tc) ≠ main_v12 := by decide +kernel
theorem v9_ne_v12 : (main_v9 : Ref sig .tc) ≠ main_v12 := by decide +kernel
theorem v10_ne_v12 : (main_v10 : Ref sig .tc) ≠ main_v12 := by decide +kernel
theorem v11_ne_v12 : (main_v11 : Ref sig .tc) ≠ main_v12 := by decide +kernel

/-- The entry contents of each window's array are the region-entry contents of the buffer behind it. -/
theorem arrAt_zero (c : Dev nD) (w : Fin cfg0.W) : (dats m 0 c).arrAt w 0 = V m c (Pipeline.arrRef spec0 w) := rfl

/-- An input window's array ends as it began. -/
theorem arrAt_in_N (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- ENTRY: the five buffers at the region-entry contents make the six windows' arrays, the anchors' buffer dealt in
    two halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]; unfold Dat.arrays; rw [bigSep_W0]
  rw [arr_pt m c 0 _ (share0_0 m c), arr_pt m c 1 _ (share0_1 m c), arr_pt m c 2 _ (share0_2 m c), arr_pt m c 3 _ (share0_3 m c),
    arr_pt m c 4 _ (share0_4 m c), arr_pt m c 5 _ (share0_5 m c)]
  simp only [arrAt_zero]
  iintro ⟨H8, H9, H10, H11, H12⟩
  ihave H := (pointsTo_share (PosShare.mem_left_op_right fullShare)).1 $$ H8
  icases H with ⟨Hl, Hr⟩
  isplitl [Hl]; · iexact Hl
  isplitl [Hr]; · iexact Hr
  isplitl [H9]; · iexact H9
  isplitl [H10]; · iexact H10
  isplitl [H11]; · iexact H11
  iexact H12

/-- Six windows' arrays at any contents make the five buffers at contents that agree with them window by window,
    the two halves of the anchors' buffer joined. -/
theorem arrBufs_of_arrays_at (c : Dev nD) (G : (w : Fin cfg0.W) → Buf (Elt F) ((cfg0.win w).arr.view.loc (c : Thread nD τ)))
    (W : (b : Ref sig .tc) → Buf (Elt F) ((c : Thread nD τ).loc b))
    (h0 : G 0 = W main_v8) (h1 : G 1 = W main_v8) (h2 : G 2 = W main_v9) (h3 : G 3 = W main_v10) (h4 : G 4 = W main_v11)
    (h5 : G 5 = W main_v12) :
    (dats m 0 c).arrays G
      ⊢ (Pipeline.arrBufs (Ix := Unit) (Name := ℕ) (U := UR sig nD τ) (Lvl := ℕ) spec0 c W : sProp 𝕄) := by
  rw [arrBufs0_eq]; unfold Dat.arrays; rw [bigSep_W0]
  rw [arr_pt m c 0 _ (share0_0 m c), arr_pt m c 1 _ (share0_1 m c), arr_pt m c 2 _ (share0_2 m c), arr_pt m c 3 _ (share0_3 m c),
    arr_pt m c 4 _ (share0_4 m c), arr_pt m c 5 _ (share0_5 m c)]
  rw [h0, h1, h2, h3, h4, h5]
  iintro ⟨Hl, Hr, H9, H10, H11, H12⟩
  isplitl [Hl Hr]
  · iapply (pointsTo_share (PosShare.mem_left_op_right fullShare)).2
    isplitl [Hl] <;> iassumption
  isplitl [H9]; · iexact H9
  isplitl [H10]; · iexact H10
  isplitl [H11]; · iexact H11
  iexact H12

/-- EXIT: the six windows' arrays at their final contents make the five buffers at the exit contents. -/
theorem arrBufs_of_arrays (c : Dev nD) :
    (dats m 0 c).arrays ((dats m 0 c).arrAt · cfg0.N)
      ⊢ (Pipeline.arrBufs (Ix := Unit) (Name := ℕ) (U := UR sig nD τ) (Lvl := ℕ) spec0 c (Wx m c) : sProp 𝕄) :=
  arrBufs_of_arrays_at m c _ (Wx m c)
    ((arrAt_in_N m c 0 rfl).trans (Wx_of_ne m c main_v8 v8_ne_v12).symm)
    ((arrAt_in_N m c 1 rfl).trans (Wx_of_ne m c main_v8 v8_ne_v12).symm)
    ((arrAt_in_N m c 2 rfl).trans (Wx_of_ne m c main_v9 v9_ne_v12).symm)
    ((arrAt_in_N m c 3 rfl).trans (Wx_of_ne m c main_v10 v10_ne_v12).symm)
    ((arrAt_in_N m c 4 rfl).trans (Wx_of_ne m c main_v11 v11_ne_v12).symm)
    (Wx_v12 m c).symm

/-- The buffers that bypass the region hold at its exit what they held at its entry. -/
theorem unscopedRest_exit (c : Dev nD) :
    (Pipeline.unscopedRest (Ix := Unit) (Name := ℕ) (U := UR sig nD τ) (Lvl := ℕ) spec0 c (Wx m c) : sProp 𝕄)
      = Pipeline.unscopedRest spec0 c (V m c) := by
  unfold Pipeline.unscopedRest
  refine bigSep_congr fun b hb => ?_
  rw [Wx_of_ne m c b]
  rintro rfl
  exact (Finset.mem_sdiff.mp hb).2 (Finset.mem_image.mpr ⟨5, Finset.mem_univ _, rfl⟩)

/-! ## @main as three segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host lines: the generator register at some state, and the core owing
    nothing. -/
abbrev R (c : Dev nD) : sProp 𝕄 :=
  iprop((∃ r, prngReg c r) ∗ ∃ W, owes (c : Thread nD τ) (0 : CellTallies nD τ sig Unit) W)

/-- Core `c`'s buffers at launch, as a valuation. -/
abbrev Vm (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The fifteen lines before the region, within the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (Vm m) R

/-- The twenty-two lines after the region, within the unscoped buffers at the exit contents. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh (Wexit m) R

theorem held_entry (c : Dev nD) :
    (StableHlo.held (c : Thread nD τ) (Pipeline.ucRefs τ sig) (StableHlo.after hostOps0 (Vm m c)) : sProp 𝕄)
      = iprop(Pipeline.arrBufs spec0 c (V m c) ∗ Pipeline.unscopedRest spec0 c (V m c)) := by
  rw [show (StableHlo.held (c : Thread nD τ) (Pipeline.ucRefs τ sig) (StableHlo.after hostOps0 (Vm m c)) : sProp 𝕄)
      = unscopedBufs c (V m c) from (Pipeline.unscopedBufs_held c _).symm]
  exact Pipeline.unscopedBufs_split₀ cfgs 0 winFacts₀0.arr_unscoped c (V m c)

theorem held_exit (c : Dev nD) :
    (StableHlo.held (c : Thread nD τ) (Pipeline.ucRefs τ sig) (Wexit m c) : sProp 𝕄)
      = iprop(Pipeline.arrBufs spec0 c (Wx m c) ∗ Pipeline.unscopedRest spec0 c (V m c)) := by
  rw [show (StableHlo.held (c : Thread nD τ) (Pipeline.ucRefs τ sig) (Wexit m c) : sProp 𝕄)
      = unscopedBufs c (Wx m c) from (Pipeline.unscopedBufs_held c _).symm]
  rw [Pipeline.unscopedBufs_split₀ cfgs 0 winFacts₀0.arr_unscoped c (Wx m c), unscopedRest_exit]

-- `iapply` of a library lemma stated over `cfgs p` at the pinned configuration unifies only when unification may
-- unfold plain definitions in a metavariable's type
set_option backward.isDefEq.respectTransparency.types false in
/-- The region: entered from what the lines before it left — the windows' arrays into the pipeline, the generator
    register into the invariant, every other buffer bypassing —, left with the result array at what was written back. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vm m c)) ∗ R c)
  post c := iprop(StableHlo.held (c : Thread nD τ) (Pipeline.ucRefs τ sig) (Wexit m c) ∗ R c)
  X c := iprop(∃ r, prngReg c r)
  Y c := iprop(∃ r, prngReg c r)
  Z c := Pipeline.unscopedRest spec0 c (V m c)
  hentry c := by
    rw [held_entry]
    iintro ⟨⟨⟨Ha, Hrest⟩, Hp, HO⟩, -, -⟩
    imodintro
    isplitl [Ha]; · iapply (arrays_of_arrBufs m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr] <;> iassumption
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [held_exit]
    iintro ⟨Ha, HO, HY, HZ⟩
    imodintro
    isplitl [Ha HZ]
    · isplitl [Ha]; · iapply (arrBufs_of_arrays m c); iexact Ha
      iexact HZ
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-! ## The run -/

/-- The lines before the region write none of the argument arrays, nor do the lines after it. -/
theorem hostOps0_keeps (b : Ref sig .tc) (hb : b = main_arg0 ∨ b = main_arg1 ∨ b = main_arg2) :
    ∀ op ∈ (hostOps0 : List (HloOp τ sig (Elt F))), Proc.devRef .tc b ∉ op.writes := by
  intro op h
  rcases hb with rfl | rfl | rfl <;>
  ((repeat (cases h with
    | head => simp only [StableHlo.unary_writes, StableHlo.binary_writes, StableHlo.nullary_writes, StableHlo.reshape_writes, Finset.mem_singleton]; exact StableHlo.devRef_ne_of_ne (by decide +kernel)
    | tail _ h => ?_)); exact nomatch h)

theorem hostOps1_keeps (b : Ref sig .tc) (hb : b = main_arg0 ∨ b = main_arg1 ∨ b = main_arg2) :
    ∀ op ∈ (hostOps1 : List (HloOp τ sig (Elt F))), Proc.devRef .tc b ∉ op.writes := by
  intro op h
  rcases hb with rfl | rfl | rfl <;>
  ((repeat (cases h with
    | head => simp only [StableHlo.unary_writes, StableHlo.binary_writes, StableHlo.nullary_writes, StableHlo.reshape_writes, Finset.mem_singleton]; exact StableHlo.devRef_ne_of_ne (by decide +kernel)
    | tail _ h => ?_)); exact nomatch h)

theorem mem_ucRefs (b : Ref sig .tc) (hb : b.isScoped = false) : Proc.devRef .tc b ∈ Pipeline.ucRefs τ sig := by
  unfold Pipeline.ucRefs StableHlo.tcRefs
  refine Finset.mem_filter.mpr ⟨Finset.mem_map_of_mem _ (Finset.mem_univ b), ?_⟩
  simpa using hb

/-- An argument array holds at the end what it held at launch: no line writes it, and the region leaves it. -/
theorem arg_kept (c : Dev nD) (b : Ref sig .tc) (hb : b = main_arg0 ∨ b = main_arg1 ∨ b = main_arg2) (hne : b ≠ main_v12) :
    StableHlo.after hostOps1 (Wexit m c) (Proc.devRef .tc b) = m ((c.tc : Thread nD τ).loc b) := by
  rw [StableHlo.after_of_forall_not_mem hostOps1 _ (hostOps1_keeps b hb)]
  unfold Wexit
  rw [Function.update_of_ne (StableHlo.devRef_ne_of_ne hne)]
  exact StableHlo.after_of_forall_not_mem hostOps0 _ (hostOps0_keeps b hb)

-- the launch theorem's implicit arguments are found by unifying its conclusion with this one, which takes unfolding plain
-- definitions in a metavariable's type
set_option backward.isDefEq.respectTransparency.types false in
/-- Every weakly fair execution of @main terminates; at the end the result buffer holds the value of the lines after
    the region at the exit contents, and the three argument arrays are as launched. -/
theorem run_main : θ_run defs (onTc (τ := τ) (main (F := F))) ⟨m, fun _ => 0, ρ⟩ (fun r => ∀ c : Dev nD,
    r.2.mem ((c.tc : Thread nD τ).loc main_v29) = StableHlo.after hostOps1 (Wexit m c) (Proc.devRef .tc main_v29)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c))
    (Tₙ := fun c => iprop(StableHlo.held (c : Thread nD τ) (Pipeline.ucRefs τ sig) (StableHlo.after hostOps1 (Wexit m c)) ∗ ∃ r, prngReg c r))
    (hch := ⟨fun _ => .rfl, fun _ => .rfl, fun _ => .rfl, fun c => by
      show (iprop(StableHlo.held (c : Thread nD τ) (Pipeline.ucRefs τ sig) (StableHlo.after hostOps1 (Wexit m c)) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v29) = StableHlo.after hostOps1 (Wexit m c) (Proc.devRef .tc main_v29)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨Hh, -⟩, HSI⟩
      unfold StableHlo.held
      ihave Hr := (pointsTo_read_all (Pipeline.ucRefs τ sig) (fun b => ((c : Thread nD τ).1, b)) (StableHlo.after hostOps1 (Wexit m c)) s') $$ [Hh HSI]
      · isplitl [Hh] <;> iassumption
      icases Hr with ⟨%ha, HSI⟩
      imodintro
      isplitr
      · ipureintro
        exact ⟨ha _ (mem_ucRefs main_v29 (by decide +kernel)),
          (ha _ (mem_ucRefs main_arg0 (by decide +kernel))).trans (arg_kept m c main_arg0 (.inl rfl) (by decide +kernel)),
          (ha _ (mem_ucRefs main_arg1 (by decide +kernel))).trans (arg_kept m c main_arg1 (.inr (.inl rfl)) (by decide +kernel)),
          (ha _ (mem_ucRefs main_arg2 (by decide +kernel))).trans (arg_kept m c main_arg2 (.inr (.inr rfl)) (by decide +kernel))⟩
      iexact HSI)
    (hQ := fun _ h => h)

end Cert.KernelIdeal.Hand

end
-- ==== Proof.Val.Spec.lean ====
/-
  The distance InfoNCE loss over the extended reals, stated once, apart from either program.

  For anchors a (4096 rows of 256), positives p and negatives n:
    sq r   = the squared norm of anchor r,            d(x) r = the squared distance from anchor r to row r of x,
    e r c  = sq r + sq c - 2 * <a r, a c>   off the diagonal,   e r r = d(n) r   on it,
    S r    = the sum over all 4096 columns c of  e r c,
    loss   = the mean over r of  -log( exp(-d(p) r / 0.5) / (exp(-d(p) r / 0.5) + exp(-S r / 0.5) + 1e-9) ).
  The reductions sq and d, and the chain from (d(p), S) to the loss, are host operations both programs apply in the
  same order to the same operands: they are kept here as the host operations themselves, never opened. What the two
  programs do differently is only how S is summed (all columns at once, or four blocks of 1024 columns accumulated in
  turn), and addition of extended reals is commutative and associative, so the two sums agree.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The anchors' shape, a vector over the rows, and the scalar shape. -/
abbrev SA : Shape := ⟨2, ![4096, 256]⟩
abbrev SV : Shape := ⟨1, ![4096]⟩
abbrev S0 : Shape := ⟨0, ![]⟩

/-- The float literal 2.0, kept as its word: the same word on both sides is never evaluated. -/
abbrev two : EReal := Ideal.ofBits .f32 0x40000000#32

/-- The inner product of anchors `r` and `c`. -/
def gram (a : SA.Idx → EReal) (r c : Fin 4096) : EReal := ∑ k : Fin 256, a (ix2 r k) * a (ix2 c k)

/-- The pairwise entry: the squared distance between anchors `r` and `c` by the polarisation identity, the diagonal
    entry replaced by the row's distance to its negative. -/
def entry (a : SA.Idx → EReal) (sq nd : SV.Idx → EReal) (r c : Fin 4096) : EReal :=
  if r = c then nd (ix1 r) else (sq (ix1 r) + sq (ix1 c)) - two * gram a r c

/-- A row's sum of its pairwise entries over all columns. -/
def rowSum (a : SA.Idx → EReal) (sq nd : SV.Idx → EReal) (r : Fin 4096) : EReal := ∑ c : Fin 4096, entry a sq nd r c

/-! ## The host reductions both programs share, unopened -/

/-- Each row's sum of squares, as the host computes it. -/
def hostSq (h1 : SA.ReducesTo [1] SV) (h0 : 0 < S0.numel) (a : FVec Ideal SA .f32) : FVec Ideal SV .f32 :=
  Host.reduceAdd (F := Ideal) (mulf a a) (constant (F := Ideal) S0 .f32 0x00000000#32) h1 h0

/-- Each row's squared distance to the same row of `b`, as the host computes it. -/
def hostDist (h1 : SA.ReducesTo [1] SV) (h0 : 0 < S0.numel) (a b : FVec Ideal SA .f32) : FVec Ideal SV .f32 :=
  Host.reduceAdd (F := Ideal) (mulf (subf a b) (subf a b)) (constant (F := Ideal) S0 .f32 0x00000000#32) h1 h0

/-- The row sums as a vector over the rows. -/
def rowVec (h1 : SA.ReducesTo [1] SV) (h0 : 0 < S0.numel) (a n : FVec Ideal SA .f32) : FVec Ideal SV .f32 :=
  fun i => rowSum a (hostSq h1 h0 a) (hostDist h1 h0 a n) (i 0)

/-- From the distances to the positives and the row sums to the loss: the host chain both programs end with. -/
def tail (hb : S0.BroadcastsInDim SV (![] : Fin 0 → Fin SV.rank)) (hr : SV.ReducesTo [0] S0) (h0 : 0 < S0.numel)
    (pd S : FVec Ideal SV .f32) : FVec Ideal S0 .f32 :=
  let half : FVec Ideal SV .f32 := broadcastInDim SV ![] hb (constant (F := Ideal) S0 .f32 0x3F000000#32)
  let eps : FVec Ideal SV .f32 := broadcastInDim SV ![] hb (constant (F := Ideal) S0 .f32 0x3089705F#32)
  let ps : FVec Ideal SV .f32 := Host.exp (F := Ideal) (Host.divf (F := Ideal) (Host.negf (F := Ideal) pd) half)
  let ns : FVec Ideal SV .f32 := Host.exp (F := Ideal) (Host.divf (F := Ideal) (Host.negf (F := Ideal) S) half)
  Host.divf (F := Ideal)
    (Host.reduceAdd (F := Ideal) (Host.negf (F := Ideal) (Host.log (F := Ideal) (Host.divf (F := Ideal) ps (addf (addf ps ns) eps))))
      (constant (F := Ideal) S0 .f32 0x00000000#32) hr h0)
    (constant (F := Ideal) S0 .f32 0x45800000#32)

/-- The loss of anchors `a`, positives `p` and negatives `n`. -/
def loss (h1 : SA.ReducesTo [1] SV) (hb : S0.BroadcastsInDim SV (![] : Fin 0 → Fin SV.rank)) (hr : SV.ReducesTo [0] S0) (h0 : 0 < S0.numel)
    (a p n : FVec Ideal SA .f32) : FVec Ideal S0 .f32 :=
  tail hb hr h0 (hostDist h1 h0 a p) (rowVec h1 h0 a n)

end Cert.Spec

end
-- ==== Proof.Val.Payload.lean ====
/-
  One point's step of the running row sums, read at a row, at the ideal instance.

  With the block row i and block column j of the point, row p of the new sums is row p of the old sums plus the sum
  over the block's 1024 columns q of the pairwise entry: where 1024 i + p = 1024 j + q (the diagonal of the whole
  matrix) the row's distance to its negative, elsewhere  sq_i[p] + sq_j[q] - 2 * <a_i[p], a_j[q]>,  the inner product
  over the 256 features. Row and column ids are 32-bit words, and every id is below 4096, so the word comparison is
  the comparison of the numbers.
-/
import proofs.«165115_j88639535055182_1_alg».proof.Proof.KI.Runs
import proofs.«165115_j88639535055182_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

namespace Payload

/-! ## Layout operations at coordinates -/

/-- An `[a, 1]` column broadcast to `[a, b]` reads, at `(p, c)`, the column's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the columns of an `[a, b]` array into `[a]`, at the ideal values: row `r`'s sum over its `b` entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun c => Fin.ext ?_)
  match c with
  | ⟨0, _⟩ => rfl
  | ⟨1, _⟩ => rfl

/-! ## The row and column ids as words -/

/-- The word comparison for equality answers the bit 1 exactly on equal words. -/
theorem cmpi_eq_one_iff (x y : BitVec 32) : IntOp.cmpi .eq x y = 1#1 ↔ x = y := by
  unfold IntOp.cmpi
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h1 => absurd h1 (by decide), fun h2 => absurd h2 h⟩

/-- Block id below 4 and offset below 1024: the two 32-bit ids are equal words exactly when they are equal numbers. -/
theorem ids_eq_iff (a b : ℕ) (ha : a < 4) (hb : b < 4) (p q : Fin 1024) :
    IntOp.cmpi .eq (IntOp.addi (Scalar.muli (BitVec.ofNat 32 a) 1024#32) (BitVec.ofNat 32 p.val))
        (IntOp.addi (Scalar.muli (BitVec.ofNat 32 b) 1024#32) (BitVec.ofNat 32 q.val)) = 1#1
      ↔ 1024 * a + p.val = 1024 * b + q.val := by
  have hp := p.isLt; have hq := q.isLt
  rw [cmpi_eq_one_iff]
  unfold IntOp.addi Scalar.muli IntOp.muli
  rw [← BitVec.toNat_inj]
  simp only [BitVec.toNat_add, BitVec.toNat_mul, BitVec.toNat_ofNat]
  omega

/-- So a select on that comparison is the `if` on the numbers. -/
theorem select_ids {α : Type} (a b : ℕ) (ha : a < 4) (hb : b < 4) (p q : Fin 1024) (A B : α) :
    Scalar.select (IntOp.cmpi .eq (IntOp.addi (Scalar.muli (BitVec.ofNat 32 a) 1024#32) (BitVec.ofNat 32 p.val))
        (IntOp.addi (Scalar.muli (BitVec.ofNat 32 b) 1024#32) (BitVec.ofNat 32 q.val))) A B
      = if 1024 * a + p.val = 1024 * b + q.val then A else B := by
  unfold Scalar.select
  exact if_congr (ids_eq_iff a b ha hb p q) rfl rfl

/-- A word comparison of vectors at an index compares the elements. -/
theorem cmpi_apply {s : Shape} {w : ℕ} (pr : CmpIPredicate) (x y : IVec s w) (j : s.Idx) : cmpi pr x y j = IntOp.cmpi pr (x j) (y j) := rfl

/-- The row ids as a column: at row `p` the block's first row id plus `p`. -/
theorem rowId_apply (a : BitVec 32) (p : Fin 1024) :
    addi (broadcast S1024x1 a) (iota .tc S1024x1 32 [0] iota_S1024x1_d0_w32) (ix2 p (0 : Fin 1)) = IntOp.addi a (BitVec.ofNat 32 p.val) := by
  show IntOp.addi a (iota .tc S1024x1 32 [0] iota_S1024x1_d0_w32 (ix2 p (0 : Fin 1))) = _
  rw [iota_single_apply]

/-- The column ids as a row: at column `q` the block's first column id plus `q`. -/
theorem colId_apply (b : BitVec 32) (q : Fin 1024) :
    addi (broadcast S1x1024 b) (iota .tc S1x1024 32 [1] iota_S1x1024_d1_w32) (ix2 (0 : Fin 1) q) = IntOp.addi b (BitVec.ofNat 32 q.val) := by
  show IntOp.addi b (iota .tc S1x1024 32 [1] iota_S1x1024_d1_w32 (ix2 (0 : Fin 1) q)) = _
  rw [iota_single_apply]

/-! ## The product of the two anchor blocks, both contracted along their features -/

theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Entry `(p, q)` of the product into the zero block: the inner product of row `p` of the first block and row `q` of
    the second over the 256 features. -/
theorem gram_apply (x y : FVec Ideal S1024x256 .bf16) (p q : Fin 1024) :
    matmul (F := Ideal) dot_S1024x256_S1024x256_S1024x1024_1_1_0_0_n_n none x y (constant (F := Ideal) S1024x1024 .f32 0x00000000#32) (ix2 p q)
      = ∑ k : Fin 256, x (ix2 p k) * y (ix2 q k) := by
  refine (Ideal.matmul_constant_zero_apply dot_S1024x256_S1024x256_S1024x1024_1_1_0_0_n_n none x y (ix2 p q)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]

end Payload

open Payload

/-! ## The two payloads at a row -/

/-- The running sums a block row starts from are zero at every row. -/
theorem accZero_apply (p : Fin 1024) : accZero (F := Ideal) (ix2 p (0 : Fin 1)) = 0 := by
  unfold accZero k0_pay2
  simp only [shapeCast_self]
  exact Ideal.ofBits_zero_f32

/-- Row `p` of the sums after a point, from the point's five input blocks and the sums `xs` it starts from. -/
theorem accStep_apply (i : grid0.Coords) (x0 x1 : Vec Ideal S1024x256 .bf16) (x2 : Vec Ideal S1024x1 .f32) (x3 : Vec Ideal S1x1024 .f32)
    (x4 : Vec Ideal S1024x1 .f32) (xs : Vec Ideal S1024x1 .f32) (p : Fin 1024) :
    accStep (F := Ideal) i x0 x1 x2 x3 x4 xs (ix2 p (0 : Fin 1))
      = xs (ix2 p (0 : Fin 1)) + ∑ q : Fin 1024,
          (if 1024 * (i 0).val + p.val = 1024 * (i 1).val + q.val then x4 (ix2 p (0 : Fin 1))
           else (x2 (ix2 p (0 : Fin 1)) + x3 (ix2 (0 : Fin 1) q)) - Cert.Spec.two * ∑ k : Fin 256, x0 (ix2 p k) * x1 (ix2 q k)) := by
  have h0 : (i 0).val < 4 := (i 0).isLt
  have h1 : (i 1).val < 4 := (i 1).isLt
  unfold accStep k0_pay1 k0_pay3
  simp only [shapeCast_self]
  refine (addf_apply (s := S1024x1) (φ := .f32) xs _ (ix2 p (0 : Fin 1))).trans ?_
  refine congrArg (xs (ix2 p (0 : Fin 1)) + ·) ?_
  refine (shapeCast_a_a1_apply _ shapeCasts_S1024_S1024x1 p (0 : Fin 1)).trans ?_
  refine (rowSum_apply _ _ reduces_S1024x1024_S1024 _ _ p).trans ?_
  refine Finset.sum_congr rfl fun q _ => ?_
  simp only [select_apply, cmpi_apply, broadcastTo_a1_ab_apply, broadcastTo_1b_ab_apply, subf_apply, addf_apply,
    mulf_apply, broadcast_apply, gram_apply]
  rw [rowId_apply, colId_apply]
  exact select_ids (i 0).val (i 1).val h0 h1 p q _ _

end Cert.KernelIdeal.HandValue

end
-- ==== Proof.Val.KernelRows.lean ====
/-
  The rows of the region's result at the ideal instance: after the sixteen points, row r of the result array holds the
  sum over all 4096 columns of the pairwise entries of row r.

  Block row i is finished at point 4 i + 3 and written back there; its row p is row 1024 i + p of the array. The
  scratch then holds zero plus the four block columns' sums in turn, each the sum over the block's 1024 columns; the
  columns 1024 j + q, over j < 4 and q < 1024, are all 4096 columns once each, and addition of extended reals is
  commutative and associative.
-/
import proofs.«165115_j88639535055182_1_alg».proof.Proof.KI.Frame
import proofs.«165115_j88639535055182_1_alg».proof.Proof.Val.Spec
import proofs.«165115_j88639535055182_1_alg».proof.Proof.Val.Payload
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! ## Rows and columns by blocks -/

/-- Row (or column) `p` of block `i`, as a row (or column) of the whole matrix. -/
def at4 (i : Fin 4) (p : Fin 1024) : Fin 4096 := ⟨1024 * i.val + p.val, by omega⟩

theorem at4_val (i : Fin 4) (p : Fin 1024) : (at4 i p).val = 1024 * i.val + p.val := rfl

/-- The columns `1024 j + q`, over the four blocks and the 1024 columns of each, are all 4096 columns once each. -/
def colEquiv : Fin 4 × Fin 1024 ≃ Fin 4096 where
  toFun x := at4 x.1 x.2
  invFun c := (⟨c.val / 1024, by omega⟩, ⟨c.val % 1024, by omega⟩)
  left_inv x := by
    obtain ⟨j, q⟩ := x
    apply Prod.ext
    · apply Fin.ext; show (1024 * j.val + q.val) / 1024 = j.val; omega
    · apply Fin.ext; show (1024 * j.val + q.val) % 1024 = q.val; omega
  right_inv c := by
    apply Fin.ext; show 1024 * (c.val / 1024) + c.val % 1024 = c.val; omega

/-- A sum over all columns is the sum over the four blocks of the sums over each block's columns. -/
theorem sum_cols {M : Type*} [AddCommMonoid M] (f : Fin 4096 → M) :
    ∑ c : Fin 4096, f c = ∑ q, f (at4 0 q) + ∑ q, f (at4 1 q) + ∑ q, f (at4 2 q) + ∑ q, f (at4 3 q) := by
  rw [← Equiv.sum_comp colEquiv f, Fintype.sum_prod_type, Fin.sum_univ_four]
  rfl

/-- One entry from the blocks' elements: the comparison of the two global ids is the comparison of row and column. -/
theorem entry_of_blocks (a : Cert.Spec.SA.Idx → EReal) (sq nd : Cert.Spec.SV.Idx → EReal) (i j : Fin 4) (p q : Fin 1024)
    (ci cj : ℕ) (hci : ci = i.val) (hcj : cj = j.val)
    (x0 x1 : Fin 256 → EReal) (x2 x3 x4 : EReal)
    (h0 : ∀ k, x0 k = a (ix2 (at4 i p) k)) (h1 : ∀ k, x1 k = a (ix2 (at4 j q) k))
    (h2 : x2 = sq (ix1 (at4 i p))) (h3 : x3 = sq (ix1 (at4 j q))) (h4 : x4 = nd (ix1 (at4 i p))) :
    (if 1024 * ci + p.val = 1024 * cj + q.val then x4 else (x2 + x3) - Cert.Spec.two * ∑ k : Fin 256, x0 k * x1 k)
      = Cert.Spec.entry a sq nd (at4 i p) (at4 j q) := by
  subst hci hcj h2 h3 h4
  unfold Cert.Spec.entry Cert.Spec.gram
  have hc : (1024 * i.val + p.val = 1024 * j.val + q.val) ↔ at4 i p = at4 j q := by
    rw [Fin.ext_iff]; exact Iff.rfl
  simp only [hc, h0, h1]

/-- The four steps of a block row: from zero, the four block columns' sums added in turn, are the row's sum. -/
theorem rowSum_of_steps (a : Cert.Spec.SA.Idx → EReal) (sq nd : Cert.Spec.SV.Idx → EReal) (r : Fin 4096) (s0 s1 s2 s3 : EReal)
    (h0 : s0 = 0 + ∑ q, Cert.Spec.entry a sq nd r (at4 0 q))
    (h1 : s1 = s0 + ∑ q, Cert.Spec.entry a sq nd r (at4 1 q))
    (h2 : s2 = s1 + ∑ q, Cert.Spec.entry a sq nd r (at4 2 q))
    (h3 : s3 = s2 + ∑ q, Cert.Spec.entry a sq nd r (at4 3 q)) :
    s3 = Cert.Spec.rowSum a sq nd r := by
  unfold Cert.Spec.rowSum
  rw [sum_cols, h3, h2, h1, h0, zero_add]

/-! ## The index maps over the grid -/

/-- The printed index maps and the grid's coordinates, decided once over the sixteen points: point `t` is block row
    `t / 4` and block column `t % 4`; the row windows sit at block `(t / 4, 0)`, the anchors' column window at
    `(t % 4, 0)`, the squared norms' column window at `(0, t % 4)`. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = 0
    ∧ (grid0.coords t (0 : Fin 2)).val = t.val / 4 ∧ (grid0.coords t (1 : Fin 2)).val = t.val % 4 :=
  (by decide +kernel : ∀ t : Fin grid0.N, _)

variable (m : (ℓ : Loc nD τ sig) → Buf (Elt Ideal) ℓ)

/-! ## Each input block is its array at the block's offset -/

/-- The row block of the anchors at point `4 i + j`: rows `1024 i + p`. -/
theorem blk0_apply (c : Dev nD) (t : Fin cfg0.N) (i j : Fin 4) (ht : t.val = 4 * i.val + j.val) (p : Fin 1024) (k : Fin 256) :
    (iblk m c 0 t : Vec Ideal S1024x256 .bf16) (ix2 p k) = V m c main_v8 (ix2 (at4 i p) k) := by
  obtain ⟨e00, e01, -⟩ := idx_facts t
  show V m c main_v8 (((cfg0.win 0).blk t).view.emb (ix2 p k)) = V m c main_v8 (ix2 (at4 i p) k)
  refine congrArg _ ?_
  funext a; apply Fin.ext
  match a with
  | ⟨0, _⟩ => show win0_0.index t (0 : Fin 2) * 1024 + 1 * p.val = 1024 * i.val + p.val; have := i.isLt; have := j.isLt; omega
  | ⟨1, _⟩ => show win0_0.index t (1 : Fin 2) * 256 + 1 * k.val = k.val; omega

/-- The column block of the anchors at point `4 i + j`: rows `1024 j + q`. -/
theorem blk1_apply (c : Dev nD) (t : Fin cfg0.N) (i j : Fin 4) (ht : t.val = 4 * i.val + j.val) (q : Fin 1024) (k : Fin 256) :
    (iblk m c 1 t : Vec Ideal S1024x256 .bf16) (ix2 q k) = V m c main_v8 (ix2 (at4 j q) k) := by
  obtain ⟨-, -, e10, e11, -⟩ := idx_facts t
  show V m c main_v8 (((cfg0.win 1).blk t).view.emb (ix2 q k)) = V m c main_v8 (ix2 (at4 j q) k)
  refine congrArg _ ?_
  funext a; apply Fin.ext
  match a with
  | ⟨0, _⟩ => show win0_1.index t (0 : Fin 2) * 1024 + 1 * q.val = 1024 * j.val + q.val; have := i.isLt; have := j.isLt; omega
  | ⟨1, _⟩ => show win0_1.index t (1 : Fin 2) * 256 + 1 * k.val = k.val; omega

/-- The row block of the squared norms' column at point `4 i + j`: rows `1024 i + p`. -/
theorem blk2_apply (c : Dev nD) (t : Fin cfg0.N) (i j : Fin 4) (ht : t.val = 4 * i.val + j.val) (p : Fin 1024) :
    (iblk m c 2 t : Vec Ideal S1024x1 .f32) (ix2 p (0 : Fin 1)) = V m c main_v9 (ix2 (at4 i p) (0 : Fin 1)) := by
  obtain ⟨-, -, -, -, e20, e21, -⟩ := idx_facts t
  show V m c main_v9 (((cfg0.win 2).blk t).view.emb (ix2 p (0 : Fin 1))) = V m c main_v9 (ix2 (at4 i p) (0 : Fin 1))
  refine congrArg _ ?_
  funext a; apply Fin.ext
  match a with
  | ⟨0, _⟩ => show win0_2.index t (0 : Fin 2) * 1024 + 1 * p.val = 1024 * i.val + p.val; have := i.isLt; have := j.isLt; omega
  | ⟨1, _⟩ => show win0_2.index t (1 : Fin 2) * 1 + 1 * 0 = 0; omega

/-- The column block of the squared norms' row at point `4 i + j`: columns `1024 j + q`. -/
theorem blk3_apply (c : Dev nD) (t : Fin cfg0.N) (i j : Fin 4) (ht : t.val = 4 * i.val + j.val) (q : Fin 1024) :
    (iblk m c 3 t : Vec Ideal S1x1024 .f32) (ix2 (0 : Fin 1) q) = V m c main_v10 (ix2 (0 : Fin 1) (at4 j q)) := by
  obtain ⟨-, -, -, -, -, -, e30, e31, -⟩ := idx_facts t
  show V m c main_v10 (((cfg0.win 3).blk t).view.emb (ix2 (0 : Fin 1) q)) = V m c main_v10 (ix2 (0 : Fin 1) (at4 j q))
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = 1024 * j.val + q.val; have := i.isLt; have := j.isLt; omega

/-- The row block of the distances to the negatives at point `4 i + j`: rows `1024 i + p`. -/
theorem blk4_apply (c : Dev nD) (t : Fin cfg0.N) (i j : Fin 4) (ht : t.val = 4 * i.val + j.val) (p : Fin 1024) :
    (iblk m c 4 t : Vec Ideal S1024x1 .f32) (ix2 p (0 : Fin 1)) = V m c main_v11 (ix2 (at4 i p) (0 : Fin 1)) := by
  obtain ⟨-, -, -, -, -, -, -, -, e40, e41, -⟩ := idx_facts t
  show V m c main_v11 (((cfg0.win 4).blk t).view.emb (ix2 p (0 : Fin 1))) = V m c main_v11 (ix2 (at4 i p) (0 : Fin 1))
  refine congrArg _ ?_
  funext a; apply Fin.ext
  match a with
  | ⟨0, _⟩ => show win0_4.index t (0 : Fin 2) * 1024 + 1 * p.val = 1024 * i.val + p.val; have := i.isLt; have := j.isLt; omega
  | ⟨1, _⟩ => show win0_4.index t (1 : Fin 2) * 1 + 1 * 0 = 0; omega

/-! ## One point's step, in the spec's entries -/

section Steps

variable (c : Dev nD) (a : Cert.Spec.SA.Idx → EReal) (sq nd : Cert.Spec.SV.Idx → EReal)
  (h8 : ∀ (r : Fin 4096) (k : Fin 256), V m c main_v8 (ix2 r k) = a (ix2 r k))
  (h9 : ∀ r : Fin 4096, V m c main_v9 (ix2 r (0 : Fin 1)) = sq (ix1 r))
  (h10 : ∀ r : Fin 4096, V m c main_v10 (ix2 (0 : Fin 1) r) = sq (ix1 r))
  (h11 : ∀ r : Fin 4096, V m c main_v11 (ix2 r (0 : Fin 1)) = nd (ix1 r))

include h8 h9 h10 h11

/-- At point `4 i + j`, row `p` of the running sums gains the sum of row `1024 i + p`'s entries over the columns
    `1024 j + q`. -/
theorem point_step (t : Fin cfg0.N) (i j : Fin 4) (ht : t.val = 4 * i.val + j.val) (xs : Vec Ideal S1024x1 .f32) (p : Fin 1024) :
    accStep (F := Ideal) (grid0.coords t) (iblk m c 0 t) (iblk m c 1 t) (iblk m c 2 t) (iblk m c 3 t) (iblk m c 4 t) xs (ix2 p (0 : Fin 1))
      = xs (ix2 p (0 : Fin 1)) + ∑ q : Fin 1024, Cert.Spec.entry a sq nd (at4 i p) (at4 j q) := by
  obtain ⟨-, -, -, -, -, -, -, -, -, -, -, -, ec0, ec1⟩ := idx_facts t
  have hi := i.isLt
  have hj := j.isLt
  refine (accStep_apply (grid0.coords t) (iblk m c 0 t) (iblk m c 1 t) (iblk m c 2 t) (iblk m c 3 t) (iblk m c 4 t) xs p).trans ?_
  refine congrArg _ (Finset.sum_congr rfl fun q _ => ?_)
  exact entry_of_blocks a sq nd i j p q _ _ (ec0.trans (by omega)) (ec1.trans (by omega))
    (fun k => (iblk m c 0 t : Vec Ideal S1024x256 .bf16) (ix2 p k)) (fun k => (iblk m c 1 t : Vec Ideal S1024x256 .bf16) (ix2 q k))
    _ _ _
    (fun k => (blk0_apply m c t i j ht p k).trans (h8 _ _)) (fun k => (blk1_apply m c t i j ht q k).trans (h8 _ _))
    ((blk2_apply m c t i j ht p).trans (h9 _)) ((blk3_apply m c t i j ht q).trans (h10 _)) ((blk4_apply m c t i j ht p).trans (h11 _))

omit h8 h9 h10 h11 in
/-- The running sums do not depend on how the point's number is written. -/
theorem outsAt0_congr (n n' : ℕ) (h : n = n') (hn : n < cfg0.N) (hn' : n' < cfg0.N) : outsAt0 m c n hn = outsAt0 m c n' hn' := by
  subst h; rfl

/-- Point `4 i + j` of the grid. -/
def pt (i j : Fin 4) : Fin cfg0.N := ⟨4 * i.val + j.val, by rw [show cfg0.N = 16 from N_0]; omega⟩

omit h8 h9 h10 h11 in
theorem pt_val (i j : Fin 4) : (pt i j).val = 4 * i.val + j.val := rfl

/-- A block row's first point: from zero, the first block column's sum. -/
theorem outs_first (i : Fin 4) (p : Fin 1024) :
    outsAt0 m c (pt i 0).val (pt i 0).isLt (ix2 p (0 : Fin 1)) = 0 + ∑ q : Fin 1024, Cert.Spec.entry a sq nd (at4 i p) (at4 0 q) := by
  refine (congrFun (outsAt0_A m c (pt i 0) (by rw [pt_val]; show (4 * i.val + 0) % 4 = 0; omega)) (ix2 p (0 : Fin 1))).trans ?_
  refine (point_step m c a sq nd h8 h9 h10 h11 (pt i 0) i 0 rfl _ p).trans ?_
  rw [accZero_apply]

/-- Every later point of a block row: the sums the point before left, and this block column's sum. -/
theorem outs_next (i j j' : Fin 4) (hj : j.val = j'.val + 1) (p : Fin 1024) :
    outsAt0 m c (pt i j).val (pt i j).isLt (ix2 p (0 : Fin 1))
      = outsAt0 m c (pt i j').val (pt i j').isLt (ix2 p (0 : Fin 1)) + ∑ q : Fin 1024, Cert.Spec.entry a sq nd (at4 i p) (at4 j q) := by
  refine (congrFun (outsAt0_B m c (pt i j) (by rw [pt_val]; omega)) (ix2 p (0 : Fin 1))).trans ?_
  refine (point_step m c a sq nd h8 h9 h10 h11 (pt i j) i j rfl _ p).trans ?_
  refine congrArg (· + _) ?_
  exact congrFun (outsAt0_congr m c _ _ (by rw [pt_val, pt_val]; omega) _ _) _

/-- A block row's last point: row `p` of the running sums is row `1024 i + p`'s sum over all columns. -/
theorem outs_last (i : Fin 4) (p : Fin 1024) :
    outsAt0 m c (pt i 3).val (pt i 3).isLt (ix2 p (0 : Fin 1)) = Cert.Spec.rowSum a sq nd (at4 i p) :=
  rowSum_of_steps a sq nd (at4 i p) _ _ _ _
    (outs_first m c a sq nd h8 h9 h10 h11 i p)
    (outs_next m c a sq nd h8 h9 h10 h11 i 1 0 rfl p)
    (outs_next m c a sq nd h8 h9 h10 h11 i 2 1 rfl p)
    (outs_next m c a sq nd h8 h9 h10 h11 i 3 2 rfl p)

end Steps

/-! ## From the blocks to the array -/

/-- What the result array ends holding: at each row, the row's sum. -/
def rowsG (a : Cert.Spec.SA.Idx → EReal) (sq nd : Cert.Spec.SV.Idx → EReal) : S4096x1.Idx → EReal :=
  fun i => Cert.Spec.rowSum a sq nd ⟨(i 0).val, idx2_lt0 i⟩

/-- An index of the result array is in point `t`'s block iff each coordinate is in the block's range on its axis. -/
theorem mem_blk5 (t : Fin cfg0.N) (i : S4096x1.Idx) :
    i ∈ ((cfg0.win 5).blk t).view.set
      ↔ ∀ a : Fin 2, win0_5.index t a * S1024x1.size a ≤ (i a).val ∧ (i a).val < win0_5.index t a * S1024x1.size a + S1024x1.size a := by
  show i ∈ ((View.whole main_v12).slice (win0_5.rect t)).set ↔ _
  rw [View.set_slice_whole, Rect.mem_set_unit]
  exact Iff.rfl

section Final

variable (c : Dev nD) (a : Cert.Spec.SA.Idx → EReal) (sq nd : Cert.Spec.SV.Idx → EReal)
  (h8 : ∀ (r : Fin 4096) (k : Fin 256), V m c main_v8 (ix2 r k) = a (ix2 r k))
  (h9 : ∀ r : Fin 4096, V m c main_v9 (ix2 r (0 : Fin 1)) = sq (ix1 r))
  (h10 : ∀ r : Fin 4096, V m c main_v10 (ix2 (0 : Fin 1) r) = sq (ix1 r))
  (h11 : ∀ r : Fin 4096, V m c main_v11 (ix2 r (0 : Fin 1)) = nd (ix1 r))

include h8 h9 h10 h11

/-- What a point writes back is its block of the row sums: only a block row's last point writes back, and there the
    running sums are the rows' sums. -/
theorem flushed5_eq (t : Fin cfg0.N) (hf : (cfg0.win 5).flush t = true) :
    (dats (F := Ideal) m 0 c).flushed 5 t = ((cfg0.win 5).blk t).view.read (Elt Ideal) (rowsG a sq nd) := by
  have h3 : t.val % 4 = 3 := (flush0_5 t).mp hf
  have hN : t.val < 16 := lt_of_lt_of_eq t.isLt (show cfg0.N = 16 from N_0)
  obtain ⟨i, rfl⟩ : ∃ i : Fin 4, t = pt i 3 :=
    ⟨⟨t.val / 4, by omega⟩, Fin.ext (by show t.val = 4 * (t.val / 4) + 3; omega)⟩
  obtain ⟨-, -, -, -, -, -, -, -, -, -, e50, e51, -⟩ := idx_facts (pt i 3)
  show (cfg0.win 5).cut (grid0.coords (pt i 3)) ((dats (F := Ideal) m 0 c).after 5 (pt i 3)) = _
  rw [after0_5]
  have hy : ∀ y : S1024x1.Idx, outsAt0 m c (pt i 3).val (pt i 3).isLt y
      = rowsG a sq nd (((cfg0.win 5).blk (pt i 3)).view.emb y) := by
    intro y
    obtain ⟨p, z, rfl⟩ : ∃ (p : Fin 1024) (z : Fin 1), y = ix2 p z := ⟨y 0, y 1, eq_ix2 y⟩
    obtain rfl : z = 0 := Subsingleton.elim _ _
    rw [outs_last m c a sq nd h8 h9 h10 h11 i p]
    unfold rowsG
    refine congrArg _ (Fin.ext ?_)
    show 1024 * i.val + p.val = win0_5.index (pt i 3) (0 : Fin 2) * 1024 + 1 * p.val
    rw [e50, pt_val]; have := i.isLt; omega
  exact funext fun y => hy y

end Final

/-- Row `r` of the result array after the region, given what the region's input arrays hold index by index: the
    anchors `a`, their squared norms `sq` (as a column and as a row), the distances to the negatives `nd`. -/
theorem rows (c : Dev nD) (a : Cert.Spec.SA.Idx → EReal) (sq nd : Cert.Spec.SV.Idx → EReal)
    (h8 : ∀ (r : Fin 4096) (k : Fin 256), V m c main_v8 (ix2 r k) = a (ix2 r k))
    (h9 : ∀ r : Fin 4096, V m c main_v9 (ix2 r (0 : Fin 1)) = sq (ix1 r))
    (h10 : ∀ r : Fin 4096, V m c main_v10 (ix2 (0 : Fin 1) r) = sq (ix1 r))
    (h11 : ∀ r : Fin 4096, V m c main_v11 (ix2 r (0 : Fin 1)) = nd (ix1 r))
    (r : Fin 4096) :
    (dats (F := Ideal) m 0 c).arrAt 5 cfg0.N (ix2 r (0 : Fin 1)) = Cert.Spec.rowSum a sq nd r := by
  have hr := r.isLt
  obtain ⟨i, p, rfl⟩ : ∃ (i : Fin 4) (p : Fin 1024), r = at4 i p :=
    ⟨⟨r.val / 1024, by omega⟩, ⟨r.val % 1024, by omega⟩,
      Fin.ext (by show r.val = 1024 * (r.val / 1024) + r.val % 1024; omega)⟩
  obtain ⟨-, -, -, -, -, -, -, -, -, -, e50, e51, -⟩ := idx_facts (pt i 3)
  have hi := i.isLt
  have hf : (cfg0.win 5).flush (pt i 3) = true := (flush0_5 (pt i 3)).mpr (by rw [pt_val]; omega)
  refine ((dats (F := Ideal) m 0 c).arrAt_apply_of_mem 5 (rowsG a sq nd)
    (fun t hft => flushed5_eq m c a sq nd h8 h9 h10 h11 t hft) cfg0.N (pt i 3) (ix2 (at4 i p) (0 : Fin 1)) (pt i 3).isLt hf ?_).trans rfl
  rw [mem_blk5]
  intro ax
  match ax with
  | ⟨0, _⟩ =>
    show win0_5.index (pt i 3) (0 : Fin 2) * 1024 ≤ 1024 * i.val + p.val
      ∧ 1024 * i.val + p.val < win0_5.index (pt i 3) (0 : Fin 2) * 1024 + 1024
    rw [e50, pt_val]; omega
  | ⟨1, _⟩ =>
    show win0_5.index (pt i 3) (1 : Fin 2) * 1 ≤ 0 ∧ 0 < win0_5.index (pt i 3) (1 : Fin 2) * 1 + 1
    rw [e51]; omega

end Cert.KernelIdeal.HandValue

end
-- ==== Proof.Val.KernelFinal.lean ====
/-
  The idealized kernel program's result: the loss of its three arguments.

  The lines before the region leave the anchors (a change of float format is the identity at the ideal instance),
  their squared norms reshaped as a column and as a row, and the distances to the negatives reshaped as a column; the
  region's result is the row sums (`rows`); the lines after it reshape that column to a vector and apply the shared
  chain to it and to the distances to the positives, which bypass the region.
-/
import proofs.«165115_j88639535055182_1_alg».proof.Proof.KI.Launch
import proofs.«165115_j88639535055182_1_alg».proof.Proof.Val.KernelRows
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue.Final

open Cert.KernelIdeal Cert.KernelIdeal.Gen Cert.KernelIdeal.Hand
open Idealize.ShloMosaic Idealize.ShloMosaic.TcCoe Idealize.ShloMosaic.ValueIdx
open Idealize.SL.Sem

/-! ## A vector as a column, and back

A vector of length a and an a x 1 column have the same row-major positions: position i of the one is position
i * 1 + 0 of the other. -/

section Casts
variable {α : Type}

/-- A vector cast to a column reads, at row `i`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at `i`, the column's row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Casts

variable (m : (ℓ : Loc nD τ sig) → Buf (Elt Ideal) ℓ)

/-- The three argument arrays of core `c`: the anchors, the positives, the negatives. -/
abbrev anchors (c : Dev nD) : FVec Ideal Cert.Spec.SA .f32 := m ((c.tc : Thread nD τ).loc main_arg0)
abbrev positives (c : Dev nD) : FVec Ideal Cert.Spec.SA .f32 := m ((c.tc : Thread nD τ).loc main_arg1)
abbrev negatives (c : Dev nD) : FVec Ideal Cert.Spec.SA .f32 := m ((c.tc : Thread nD τ).loc main_arg2)

/-! ## What the lines before the region leave

Each is read off the operations that wrote it; the two reductions are named as the shared host reductions and not
opened. -/

/-- The array the two anchor windows read is the anchors themselves: over the extended reals a change of float format
    changes nothing. -/
theorem before_v8 (c : Dev nD) : (V m c main_v8 : S4096x256.Idx → EReal) = anchors m c := by
  show StableHlo.after hostOps0 (fun b => m (c, b)) (Proc.devRef .tc main_v8) = _
  after_results
  rfl

/-- The squared norms as a column. -/
theorem before_v9 (c : Dev nD) :
    (V m c main_v9 : S4096x1.Idx → EReal)
      = shapeCast S4096x1 (Cert.Spec.hostSq reducesTo_S4096x256_S4096_d1 h_S_ (anchors m c)) shapeCasts_S4096_S4096x1 := by
  show StableHlo.after hostOps0 (fun b => m (c, b)) (Proc.devRef .tc main_v9) = _
  after_results
  rfl

/-- The squared norms as a row. -/
theorem before_v10 (c : Dev nD) :
    (V m c main_v10 : S1x4096.Idx → EReal)
      = shapeCast S1x4096 (Cert.Spec.hostSq reducesTo_S4096x256_S4096_d1 h_S_ (anchors m c)) shapeCasts_S4096_S1x4096 := by
  show StableHlo.after hostOps0 (fun b => m (c, b)) (Proc.devRef .tc main_v10) = _
  after_results
  rfl

/-- The distances to the negatives as a column. -/
theorem before_v11 (c : Dev nD) :
    (V m c main_v11 : S4096x1.Idx → EReal)
      = shapeCast S4096x1 (Cert.Spec.hostDist reducesTo_S4096x256_S4096_d1 h_S_ (anchors m c) (negatives m c)) shapeCasts_S4096_S4096x1 := by
  show StableHlo.after hostOps0 (fun b => m (c, b)) (Proc.devRef .tc main_v11) = _
  after_results
  rfl

/-- The distances to the positives, which the region does not touch. -/
theorem before_v2 (c : Dev nD) :
    (V m c main_v2 : S4096.Idx → EReal) = Cert.Spec.hostDist reducesTo_S4096x256_S4096_d1 h_S_ (anchors m c) (positives m c) := by
  show StableHlo.after hostOps0 (fun b => m (c, b)) (Proc.devRef .tc main_v2) = _
  after_results
  rfl

/-! ## The region's result -/

/-- Row `r` of the region's result is row `r`'s sum of pairwise entries, for the anchors, their squared norms and
    their distances to the negatives: the four input arrays hold exactly these, index by index. -/
theorem result_row (c : Dev nD) (r : Fin 4096) :
    (dats (F := Ideal) m 0 c).arrAt 5 cfg0.N (ix2 r (0 : Fin 1))
      = Cert.Spec.rowSum (anchors m c) (Cert.Spec.hostSq reducesTo_S4096x256_S4096_d1 h_S_ (anchors m c))
          (Cert.Spec.hostDist reducesTo_S4096x256_S4096_d1 h_S_ (anchors m c) (negatives m c)) r :=
  rows m c (anchors m c) (Cert.Spec.hostSq reducesTo_S4096x256_S4096_d1 h_S_ (anchors m c))
    (Cert.Spec.hostDist reducesTo_S4096x256_S4096_d1 h_S_ (anchors m c) (negatives m c))
    (fun r k => congrFun (before_v8 m c) (ix2 r k))
    (fun r => (congrFun (before_v9 m c) (ix2 r (0 : Fin 1))).trans (shapeCast_a_a1_apply _ _ r 0))
    (fun r => (congrFun (before_v10 m c) (ix2 (0 : Fin 1) r)).trans (shapeCast_a_1a_apply _ _ 0 r))
    (fun r => (congrFun (before_v11 m c) (ix2 r (0 : Fin 1))).trans (shapeCast_a_a1_apply _ _ r 0))
    r

/-- The result column read as a vector is the vector of row sums. -/
theorem result_vec (c : Dev nD) :
    shapeCast S4096 ((dats (F := Ideal) m 0 c).arrAt 5 cfg0.N : S4096x1.Idx → EReal) shapeCasts_S4096x1_S4096
      = Cert.Spec.rowVec reducesTo_S4096x256_S4096_d1 h_S_ (anchors m c) (negatives m c) := by
  funext i
  obtain ⟨r, rfl⟩ : ∃ r : Fin 4096, i = ix1 r := ⟨i 0, eq_ix1 i⟩
  refine (shapeCast_a1_a_apply _ _ r).trans ?_
  exact result_row m c r

/-! ## The lines after the region -/

/-- The twenty-two lines after the region are the shared chain, applied to the distances to the positives and to the
    result column read as a vector, both as the exit contents hold them. The chain is matched operation by operation
    and never evaluated. -/
theorem after_is_tail (c : Dev nD) :
    StableHlo.after hostOps1 (Wexit (F := Ideal) m c) (Proc.devRef .tc main_v29)
      = Cert.Spec.tail bcast_S_S4096 reducesTo_S4096_S_d0 h_S_ (Wexit (F := Ideal) m c (Proc.devRef .tc main_v2) : S4096.Idx → EReal)
          (shapeCast S4096 (Wexit (F := Ideal) m c (Proc.devRef .tc main_v12) : S4096x1.Idx → EReal) shapeCasts_S4096x1_S4096) := by
  after_results
  rfl

/-- At the exit the result array holds what the region wrote back. -/
theorem exit_v12 (c : Dev nD) : Wexit (F := Ideal) m c (Proc.devRef .tc main_v12) = (dats (F := Ideal) m 0 c).arrAt 5 cfg0.N := by
  unfold Wexit; exact Function.update_self _ _ _

/-- At the exit the distances to the positives are as the lines before the region left them: a different array from
    the result. -/
theorem exit_v2 (c : Dev nD) : Wexit (F := Ideal) m c (Proc.devRef .tc main_v2) = V m c main_v2 := by
  unfold Wexit; exact Function.update_of_ne (StableHlo.devRef_ne_of_ne (by decide)) _ _

end Cert.KernelIdeal.HandValue.Final

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The value of the lines after the region at the region's exit contents is the loss of the argument arrays. -/
theorem kernel_final (c : Dev nD) :
    StableHlo.after hostOps1 (Wexit (F := Ideal) m c) (Proc.devRef .tc main_v29)
      = Cert.Spec.loss reducesTo_S4096x256_S4096_d1 bcast_S_S4096 reducesTo_S4096_S_d0 h_S_
          (m ((c.tc : Thread nD τ).loc main_arg0)) (m ((c.tc : Thread nD τ).loc main_arg1)) (m ((c.tc : Thread nD τ).loc main_arg2)) := by
  rw [Final.after_is_tail, Final.exit_v12, Final.exit_v2, Final.before_v2, Final.result_vec]
  rfl

end Cert.KernelIdeal.HandValue

end
-- ==== Proof.Val.RefFinal.lean ====
/-
  The idealized reference program's result: the loss of its three arguments.

  Its chain from the distances to the positives and the row sums to the loss is the shared one; its distances and
  squared norms are the shared host reductions; and its row sums are, index by index, zero plus the sum over all 4096
  columns of the pairwise entry: the two iotas are equal exactly on the diagonal, where the distance broadcast along
  the columns is the row's own; the product with the transposed anchors is the inner product of the two rows.
-/
import proofs.«165115_j88639535055182_1_alg».proof.Proof.Gen.ReferenceIdeal.Read
import proofs.«165115_j88639535055182_1_alg».proof.Proof.Val.Spec

set_option maxRecDepth 16384

noncomputable section

namespace Cert.ReferenceIdeal.HandValue

open Cert.ReferenceIdeal Cert.ReferenceIdeal.Gen Cert.ReferenceIdeal.Read
open Idealize.ShloMosaic Idealize.ShloMosaic.TcCoe Idealize.ShloMosaic.ValueIdx
open Idealize.SL.Sem

/-! ## Words: the two iotas meet exactly on the diagonal -/

/-- Two coordinates below 4096 have the same 32-bit word only when they are equal: nothing wraps below 2^32. -/
theorem word_inj (r c : Fin 4096) (h : BitVec.ofNat 32 r.val = BitVec.ofNat 32 c.val) : r = c := by
  have e := congrArg BitVec.toNat h
  simp only [BitVec.toNat_ofNat] at e
  have hr := r.isLt
  have hc := c.isLt
  exact Fin.ext (by omega)

/-- The select on "row word plus zero equals column word" is the `if` on "row equals column". -/
theorem select_diag {α : Type} (r c : Fin 4096) (A B : α) :
    Scalar.select (IntOp.cmpi .eq (IntOp.addi (BitVec.ofNat 32 r.val) 0#32) (BitVec.ofNat 32 c.val)) A B
      = if r = c then A else B := by
  unfold Scalar.select IntOp.cmpi IntOp.addi
  rw [BitVec.add_zero]
  by_cases h : r = c
  · subst h
    rw [if_pos rfl, if_pos (by simp)]
  · have hw : ¬ BitVec.ofNat 32 r.val = BitVec.ofNat 32 c.val := fun e => h (word_inj r c e)
    rw [if_neg h, beq_eq_false_iff_ne.2 hw]
    exact if_neg (by show ¬ BitVec.ofBool false = 1#1; decide)

/-! ## The host reductions are the shared ones -/

/-- The reference's distances to the positives (and, at the negatives, to them) are the shared reduction. -/
theorem v2_eq (x0 x1 : (⟨S4096x256, .f32⟩ : BufTy).Contents (Elt Ideal)) :
    val_main_v2 (F := Ideal) x0 x1 = Cert.Spec.hostDist reducesTo_S4096x256_S4096_d1 h_S_ x0 x1 := by
  unfold val_main_v2 val_main_v1 val_main_v0 val_main_cst Cert.Spec.hostDist
  rfl

theorem v5_eq (x0 x2 : (⟨S4096x256, .f32⟩ : BufTy).Contents (Elt Ideal)) :
    val_main_v5 (F := Ideal) x0 x2 = Cert.Spec.hostDist reducesTo_S4096x256_S4096_d1 h_S_ x0 x2 := by
  unfold val_main_v5 val_main_v4 val_main_v3 val_main_cst_0 Cert.Spec.hostDist
  rfl

/-- The reference's squared norms are the shared reduction. -/
theorem v7_eq (x0 : (⟨S4096x256, .f32⟩ : BufTy).Contents (Elt Ideal)) :
    val_main_v7 (F := Ideal) x0 = Cert.Spec.hostSq reducesTo_S4096x256_S4096_d1 h_S_ x0 := by
  unfold val_main_v7 val_main_v6 val_main_cst_1 Cert.Spec.hostSq
  rfl

/-! ## The pairwise matrix, entry by entry -/

/-- The product with the transposed anchors at row `r`, column `c` is the inner product of anchors `r` and `c`. -/
theorem v9_at (x0 : (⟨S4096x256, .f32⟩ : BufTy).Contents (Elt Ideal)) (r c : Fin 4096) :
    val_main_v9 (F := Ideal) x0 (ix2 r c) = Cert.Spec.gram x0 r c := by
  rw [val_main_v9_apply]
  unfold Cert.Spec.gram
  refine Finset.sum_congr rfl fun k _ => ?_
  rw [val_main_v8_apply]
  have e1 : lidx_main_v9 (ix2 r c) k = ix2 r k :=
    funext fun a => Fin.ext (by match a with | ⟨0, _⟩ => rfl | ⟨1, _⟩ => rfl)
  have e2 : idx_main_v8 (ridx_main_v9 (ix2 r c) k) = ix2 c k :=
    funext fun a => Fin.ext (by match a with | ⟨0, _⟩ => rfl | ⟨1, _⟩ => rfl)
  rw [e1, e2]

/-- Off the diagonal's select: squared norm of the row plus that of the column, less twice the inner product. -/
theorem v17_at (x0 : (⟨S4096x256, .f32⟩ : BufTy).Contents (Elt Ideal)) (r c : Fin 4096) :
    val_main_v17 (F := Ideal) x0 (ix2 r c)
      = (val_main_v7 (F := Ideal) x0 (ix1 r) + val_main_v7 (F := Ideal) x0 (ix1 c)) - Cert.Spec.two * Cert.Spec.gram x0 r c := by
  rw [val_main_v17_apply, val_main_v14_apply, val_main_v16_apply, val_main_v12_apply, val_main_v13_apply,
    val_main_v10_apply, val_main_v11_apply, val_main_v15_apply, val_main_cst_2_apply, v9_at]
  have e1 : idx_main_v10 (idx_main_v12 (ix2 r c)) = ix1 r :=
    funext fun a => Fin.ext (by match a with | ⟨0, _⟩ => rfl)
  have e2 : idx_main_v11 (idx_main_v13 (ix2 r c)) = ix1 c :=
    funext fun a => Fin.ext (by match a with | ⟨0, _⟩ => rfl)
  rw [e1, e2]
  rfl

/-- The distance to the negatives broadcast along the columns reads the COLUMN's distance. -/
theorem call0_at (x0 x2 : (⟨S4096x256, .f32⟩ : BufTy).Contents (Elt Ideal)) (r c : Fin 4096) :
    val_main_call0_v0 (F := Ideal) x0 x2 (ix2 r c) = val_main_v5 (F := Ideal) x0 x2 (ix1 c) := by
  rw [val_main_call0_v0_apply, val_main_v23_apply]
  have e : idx_main_v23 (idx_main_call0_v0 (ix2 r c)) = ix1 c :=
    funext fun a => Fin.ext (by match a with | ⟨0, _⟩ => rfl)
  rw [e]

/-- The comparison of the two iotas at row `r`, column `c`. -/
theorem v22_at (r c : Fin 4096) :
    val_main_v22 (F := Ideal) (ix2 r c)
      = IntOp.cmpi .eq (IntOp.addi (BitVec.ofNat 32 r.val) 0#32) (BitVec.ofNat 32 c.val) := by
  rw [val_main_v22_apply, val_main_v21_apply, val_main_v18_apply, val_main_v19_apply, val_main_v20_apply,
    val_main_c_apply]

/-- The selected matrix at row `r`, column `c` is the pairwise entry. -/
theorem v24_at (x0 x2 : (⟨S4096x256, .f32⟩ : BufTy).Contents (Elt Ideal)) (r c : Fin 4096) :
    val_main_v24 (F := Ideal) x0 x2 (ix2 r c)
      = Cert.Spec.entry x0 (val_main_v7 (F := Ideal) x0) (val_main_v5 (F := Ideal) x0 x2) r c := by
  rw [val_main_v24_apply, v22_at, call0_at, v17_at, select_diag]
  unfold Cert.Spec.entry
  by_cases h : r = c
  · subst h
    rw [if_pos rfl]
  · rw [if_neg h, if_neg h]

/-- The reference's row sums are the sums of the pairwise entries. -/
theorem v25_eq (x0 x2 : (⟨S4096x256, .f32⟩ : BufTy).Contents (Elt Ideal)) :
    val_main_v25 (F := Ideal) x0 x2 = Cert.Spec.rowVec reducesTo_S4096x256_S4096_d1 h_S_ x0 x2 := by
  funext i
  obtain ⟨r, rfl⟩ : ∃ r : Fin 4096, i = ix1 r := ⟨i 0, eq_ix1 i⟩
  rw [val_main_v25_apply, val_main_cst_3_apply, Ideal.ofBits_def, Ideal.ofBits_zero_f32, zero_add]
  unfold Cert.Spec.rowVec Cert.Spec.rowSum
  rw [← v7_eq, ← v5_eq]
  refine Finset.sum_congr rfl fun k _ => ?_
  have e : idx_main_v25 (ix1 r) k = ix2 r k :=
    funext fun a => Fin.ext (by match a with | ⟨0, _⟩ => rfl | ⟨1, _⟩ => rfl)
  rw [e]
  exact v24_at x0 x2 r k

/-! ## The chain to the loss -/

/-- From its distances to the positives and its row sums on, the reference is the shared chain. -/
theorem chain_eq (x0 x1 x2 : (⟨S4096x256, .f32⟩ : BufTy).Contents (Elt Ideal)) :
    val_main_v41 (F := Ideal) x0 x1 x2
      = Cert.Spec.tail bcast_S_S4096 reducesTo_S4096_S_d0 h_S_ (val_main_v2 (F := Ideal) x0 x1) (val_main_v25 (F := Ideal) x0 x2) := by
  unfold val_main_v41 val_main_v40 val_main_v39 val_main_v38 val_main_v37 val_main_v36 val_main_v35 val_main_v34
    val_main_v33 val_main_v32 val_main_v31 val_main_v30 val_main_v29 val_main_v28 val_main_v27 val_main_v26
    val_main_cst_4 val_main_cst_5 val_main_cst_6 val_main_cst_7 val_main_cst_8 Cert.Spec.tail
  generalize val_main_v2 (F := Ideal) x0 x1 = pd
  generalize val_main_v25 (F := Ideal) x0 x2 = S
  rfl

/-- The reference's last stage is the loss of its arguments. -/
theorem ref_final (x0 x1 x2 : (⟨S4096x256, .f32⟩ : BufTy).Contents (Elt Ideal)) :
    val_main_v41 (F := Ideal) x0 x1 x2
      = Cert.Spec.loss reducesTo_S4096x256_S4096_d1 bcast_S_S4096 reducesTo_S4096_S_d0 h_S_ x0 x1 x2 := by
  unfold Cert.Spec.loss
  rw [← v2_eq x0 x1, ← v25_eq x0 x2]
  exact chain_eq x0 x1 x2

end Cert.ReferenceIdeal.HandValue

end
-- ==== Proof.lean ====
/-
  The certificate of the distance InfoNCE kernel against its reference.

  Three frames: the word-level kernel program and its idealization run their fifteen host lines, the pairwise row-sum
  region over its 4 x 4 grid, and their twenty-two closing host lines, to the end, nothing faulting, the argument
  arrays unchanged (the same proof at both float instances); the reference is host lines only. The idealization
  rewrote no operation, so it preserves the kernel's text as it stands. At the ideal instance both programs end with
  the same loss of their arguments: the kernel's row sums, accumulated over four blocks of 1024 columns, and the
  reference's, summed over all 4096 columns at once, are the same sum of extended reals, and everything before and
  after the row sums is the same host operations applied to the same operands.
-/
import proofs.«165115_j88639535055182_1_alg».proof.Defs
import proofs.«165115_j88639535055182_1_alg».proof.Proof.K.Launch
import proofs.«165115_j88639535055182_1_alg».proof.Proof.KI.Launch
import proofs.«165115_j88639535055182_1_alg».proof.Proof.Val.KernelFinal
import proofs.«165115_j88639535055182_1_alg».proof.Proof.Val.RefFinal
import proofs.«165115_j88639535055182_1_alg».proof.Proof.Gen.ReferenceIdeal.Run
import proofs.«165115_j88639535055182_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

/-- The reference is host lines only: its run, the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- From memories that agree on the arguments both idealized programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.loss Cert.KernelIdeal.Facts₀.reducesTo_S4096x256_S4096_d1 Cert.KernelIdeal.Facts₀.bcast_S_S4096
      Cert.KernelIdeal.Facts₀.reducesTo_S4096_S_d0 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.HandValue.kernel_final m c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v41_eq, Cert.ReferenceIdeal.HandValue.ref_final, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
